-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x128 .f32) (main_arg1 : IVec S2x262144 32) (main_arg2 : FVec F S128x64 .f32) (main_arg3 : FVec F S64 .f32) (main_arg4 : FVec F S64x64 .f32) (main_arg5 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S8192x128 : Shape := ⟨2, ![8192, 128]⟩
abbrev S2x262144 : Shape := ⟨2, ![2, 262144]⟩
abbrev S128x64 : Shape := ⟨2, ![128, 64]⟩
abbrev S64 : Shape := ⟨1, ![64]⟩
abbrev S64x64 : Shape := ⟨2, ![64, 64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x64 : Shape := ⟨2, ![8192, 64]⟩
abbrev S2048x128 : Shape := ⟨2, ![2048, 128]⟩
abbrev S2048x64 : Shape := ⟨2, ![2048, 64]⟩
abbrev S270336x64 : Shape := ⟨2, ![270336, 64]⟩
abbrev S1x64 : Shape := ⟨2, ![1, 64]⟩
abbrev S8192x8192 : Shape := ⟨2, ![8192, 8192]⟩
abbrev S1024x64 : Shape := ⟨2, ![1024, 64]⟩
abbrev S1024x1024 : Shape := ⟨2, ![1024, 1024]⟩

abbrev nBuf : Space → Nat
  | .hbm => 93
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S8192, .i32⟩
  | .hbm, ⟨11, _⟩ => ⟨S270336, .i32⟩
  | .hbm, ⟨12, _⟩ => ⟨S270336, .i32⟩
  | .hbm, ⟨13, _⟩ => ⟨S_, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .i32⟩
  | .hbm, ⟨28, _⟩ => ⟨S270336, .i32⟩
  | .hbm, ⟨29, _⟩ => ⟨S270336, .i1⟩
  | .hbm, ⟨30, _⟩ => ⟨S_, .i32⟩
  | .hbm, ⟨31, _⟩ => ⟨S270336, .i32⟩
  | .hbm, ⟨32, _⟩ => ⟨S270336, .i32⟩
  | .hbm, ⟨33, _⟩ => ⟨S270336, .i32⟩
  | .hbm, ⟨34, _⟩ => ⟨S270336x1, .i32⟩
  | .hbm, ⟨35, _⟩ => ⟨S270336, .f32⟩
  | .hbm, ⟨36, _⟩ => ⟨S_, .i32⟩
  | .hbm, ⟨37, _⟩ => ⟨S270336, .i32⟩
  | .hbm, ⟨38, _⟩ => ⟨S270336, .i1⟩
  | .hbm, ⟨39, _⟩ => ⟨S_, .i32⟩
  | .hbm, ⟨40, _⟩ => ⟨S270336, .i32⟩
  | .hbm, ⟨41, _⟩ => ⟨S270336, .i32⟩
  | .hbm, ⟨42, _⟩ => ⟨S270336, .i32⟩
  | .hbm, ⟨43, _⟩ => ⟨S270336x1, .i32⟩
  | .hbm, ⟨44, _⟩ => ⟨S270336, .f32⟩
  | .hbm, ⟨45, _⟩ => ⟨S270336, .f32⟩
  | .hbm, ⟨46, _⟩ => ⟨S8192x64, .f32⟩
  | .hbm, ⟨47, _⟩ => ⟨S_, .i32⟩
  | .hbm, ⟨48, _⟩ => ⟨S270336, .i32⟩
  | .hbm, ⟨49, _⟩ => ⟨S270336, .i1⟩
  | .hbm, ⟨50, _⟩ => ⟨S_, .i32⟩
  | .hbm, ⟨51, _⟩ => ⟨S270336, .i32⟩
  | .hbm, ⟨52, _⟩ => ⟨S270336, .i32⟩
  | .hbm, ⟨53, _⟩ => ⟨S270336, .i32⟩
  | .hbm, ⟨54, _⟩ => ⟨S270336x1, .i32⟩
  | .hbm, ⟨55, _⟩ => ⟨S270336x64, .f32⟩
  | .hbm, ⟨56, _⟩ => ⟨S270336x1, .f32⟩
  | .hbm, ⟨57, _⟩ => ⟨S270336x64, .f32⟩
  | .hbm, ⟨58, _⟩ => ⟨S270336x64, .f32⟩
  | .hbm, ⟨59, _⟩ => ⟨S_, .f32⟩
  | .hbm, ⟨60, _⟩ => ⟨S8192x64, .f32⟩
  | .hbm, ⟨61, _⟩ => ⟨S270336x1, .i32⟩
  | .hbm, ⟨62, _⟩ => ⟨S8192x64, .f32⟩
  | .hbm, ⟨63, _⟩ => ⟨S1x64, .f32⟩
  | .hbm, ⟨64, _⟩ => ⟨S8192x64, .f32⟩
  | .hbm, ⟨65, _⟩ => ⟨S8192x64, .f32⟩
  | .hbm, ⟨66, _⟩ => ⟨S_, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S_, .i32⟩
  | .hbm, ⟨71, _⟩ => ⟨S270336, .i32⟩
  | .hbm, ⟨72, _⟩ => ⟨S270336, .i1⟩
  | .hbm, ⟨73, _⟩ => ⟨S_, .i32⟩
  | .hbm, ⟨74, _⟩ => ⟨S270336, .i32⟩
  | .hbm, ⟨75, _⟩ => ⟨S270336, .i32⟩
  | .hbm, ⟨76, _⟩ => ⟨S270336, .i32⟩
  | .hbm, ⟨77, _⟩ => ⟨S270336x1, .i32⟩
  | .hbm, ⟨78, _⟩ => ⟨S270336x64, .f32⟩
  | .hbm, ⟨79, _⟩ => ⟨S270336x1, .f32⟩
  | .hbm, ⟨80, _⟩ => ⟨S270336x64, .f32⟩
  | .hbm, ⟨81, _⟩ => ⟨S270336x64, .f32⟩
  | .hbm, ⟨82, _⟩ => ⟨S_, .f32⟩
  | .hbm, ⟨83, _⟩ => ⟨S8192x64, .f32⟩
  | .hbm, ⟨84, _⟩ => ⟨S270336x1, .i32⟩
  | .hbm, ⟨85, _⟩ => ⟨S8192x64, .f32⟩
  | .hbm, ⟨86, _⟩ => ⟨S1x64, .f32⟩
  | .hbm, ⟨87, _⟩ => ⟨S8192x64, .f32⟩
  | .hbm, ⟨88, _⟩ => ⟨S8192x64, .f32⟩
  | .hbm, ⟨89, _⟩ => ⟨S_, .f32⟩
  | .hbm, ⟨90, _⟩ => ⟨S8192x64, .f32⟩
  | .hbm, ⟨91, _⟩ => ⟨S8192x64, .f32⟩
  | .hbm, ⟨92, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S128x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S64x64, .f32⟩
  | .local _ .vmem, ⟨8, _⟩ => ⟨S2048x64, .f32⟩
  | .local _ .vmem, ⟨9, _⟩ => ⟨S2048x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x1024, .f32⟩
  | .local _ .vmem, ⟨15, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S2048x128_S128x64_S2048x64_1_0_0_1_n_n_wf : DotDims.WF S2048x128 S128x64 S2048x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S2048x64_S64x64_S2048x64_1_0_0_1_n_n_wf : DotDims.WF S2048x64 S64x64 S2048x64 [1] [0] [0] [1] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S8192x64.size a
  hwx1_0 : ∀ i : grid1.Coords, EltTy.bits .f32 = 32 ∨ (Rect.block (s := S8192x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S128x64 : Shape := ⟨2, ![128, 64]⟩
abbrev S64 : Shape := ⟨1, ![64]⟩
abbrev S64x64 : Shape := ⟨2, ![64, 64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x64 : Shape := ⟨2, ![8192, 64]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 138
  | .vmem => 0
  | .smem => 0
  | _ => 0

abbrev hbmTy0_0 (i : Nat) : BufTy := match i % 128 with
  | 0 => ⟨S8192x128, .f32⟩
  | 1 => ⟨S2x262144, .i32⟩
  | 2 => ⟨S128x64, .f32⟩
  | 3 => ⟨S64, .f32⟩
  | 4 => ⟨S64x64, .f32⟩
  | 5 => ⟨S64, .f32⟩
  | 6 => ⟨S1x262144, .i32⟩
  | 7 => ⟨S262144, .i32⟩
  | 8 => ⟨S1x262144, .i32⟩
  | 9 => ⟨S262144, .i32⟩
  | 10 => ⟨S8192, .i32⟩
  | 11 => ⟨S270336, .i32⟩
  | 12 => ⟨S270336, .i32⟩
  | 13 => ⟨S_, .f32⟩
  | 14 => ⟨S270336, .f32⟩
  | 15 => ⟨S_, .f32⟩
  | 16 => ⟨S8192, .f32⟩
  | 17 => ⟨S270336x1, .i32⟩
  | 18 => ⟨S8192, .f32⟩
  | 19 => ⟨S_, .f32⟩
  | 20 => ⟨S8192, .f32⟩
  | 21 => ⟨S8192, .i1⟩
  | 22 => ⟨S8192, .f32⟩
  | 23 => ⟨S_, .f32⟩
  | 24 => ⟨S_, .f32⟩
  | 25 => ⟨S8192, .f32⟩
  | 26 => ⟨S8192, .f32⟩
  | 27 => ⟨S_, .i32⟩
  | 28 => ⟨S270336, .i32⟩
  | 29 => ⟨S270336, .i1⟩
  | 30 => ⟨S_, .i32⟩
  | 31 => ⟨S270336, .i32⟩
  | 32 => ⟨S270336, .i32⟩
  | 33 => ⟨S270336, .i32⟩
  | 34 => ⟨S270336x1, .i32⟩
  | 35 => ⟨S270336, .f32⟩
  | 36 => ⟨S_, .i32⟩
  | 37 => ⟨S270336, .i32⟩
  | 38 => ⟨S270336, .i1⟩
  | 39 => ⟨S_, .i32⟩
  | 40 => ⟨S270336, .i32⟩
  | 41 => ⟨S270336, .i32⟩
  | 42 => ⟨S270336, .i32⟩
  | 43 => ⟨S270336x1, .i32⟩
  | 44 => ⟨S270336, .f32⟩
  | 45 => ⟨S270336, .f32⟩
  | 46 => ⟨S8192x64, .f32⟩
  | 47 => ⟨S_, .i32⟩
  | 48 => ⟨S270336, .i32⟩
  | 49 => ⟨S270336, .i1⟩
  | 50 => ⟨S_, .i32⟩
  | 51 => ⟨S270336, .i32⟩
  | 52 => ⟨S270336, .i32⟩
  | 53 => ⟨S270336, .i32⟩
  | 54 => ⟨S270336x1, .i32⟩
  | 55 => ⟨S270336x64, .f32⟩
  | 56 => ⟨S270336x1, .f32⟩
  | 57 => ⟨S270336x64, .f32⟩
  | 58 => ⟨S270336x64, .f32⟩
  | 59 => ⟨S_, .f32⟩
  | 60 => ⟨S8192x64, .f32⟩
  | 61 => ⟨S270336x1, .i32⟩
  | 62 => ⟨S8192x64, .f32⟩
  | 63 => ⟨S1x64, .f32⟩
  | 64 => ⟨S8192x64, .f32⟩
  | 65 => ⟨S8192x64, .f32⟩
  | 66 => ⟨S_, .f32⟩
  | 67 => ⟨S8192x64, .f32⟩
  | 68 => ⟨S8192x64, .f32⟩
  | 69 => ⟨S8192, .i32⟩
  | 70 => ⟨S270336, .i32⟩
  | 71 => ⟨S270336, .i32⟩
  | 72 => ⟨S_, .f32⟩
  | 73 => ⟨S270336, .f32⟩
  | 74 => ⟨S_, .f32⟩
  | 75 => ⟨S8192, .f32⟩
  | 76 => ⟨S270336x1, .i32⟩
  | 77 => ⟨S8192, .f32⟩
  | 78 => ⟨S_, .f32⟩
  | 79 => ⟨S8192, .f32⟩
  | 80 => ⟨S8192, .i1⟩
  | 81 => ⟨S8192, .f32⟩
  | 82 => ⟨S_, .f32⟩
  | 83 => ⟨S_, .f32⟩
  | 84 => ⟨S8192, .f32⟩
  | 85 => ⟨S8192, .f32⟩
  | 86 => ⟨S_, .i32⟩
  | 87 => ⟨S270336, .i32⟩
  | 88 => ⟨S270336, .i1⟩
  | 89 => ⟨S_, .i32⟩
  | 90 => ⟨S270336, .i32⟩
  | 91 => ⟨S270336, .i32⟩
  | 92 => ⟨S270336, .i32⟩
  | 93 => ⟨S270336x1, .i32⟩
  | 94 => ⟨S270336, .f32⟩
  | 95 => ⟨S_, .i32⟩
  | 96 => ⟨S270336, .i32⟩
  | 97 => ⟨S270336, .i1⟩
  | 98 => ⟨S_, .i32⟩
  | 99 => ⟨S270336, .i32⟩
  | 100 => ⟨S270336, .i32⟩
  | 101 => ⟨S270336, .i32⟩
  | 102 => ⟨S270336x1, .i32⟩
  | 103 => ⟨S270336, .f32⟩
  | 104 => ⟨S270336, .f32⟩
  | 105 => ⟨S8192x64, .f32⟩
  | 106 => ⟨S_, .i32⟩
  | 107 => ⟨S270336, .i32⟩
  | 108 => ⟨S270336, .i1⟩
  | 109 => ⟨S_, .i32⟩
  | 110 => ⟨S270336, .i32⟩
  | 111 => ⟨S270336, .i32⟩
  | 112 => ⟨S270336, .i32⟩
  | 113 => ⟨S270336x1, .i32⟩
  | 114 => ⟨S270336x64, .f32⟩
  | 115 => ⟨S270336x1, .f32⟩
  | 116 => ⟨S270336x64, .f32⟩
  | 117 => ⟨S270336x64, .f32⟩
  | 118 => ⟨S_, .f32⟩
  | 119 => ⟨S8192x64, .f32⟩
  | 120 => ⟨S270336x1, .i32⟩
  | 121 => ⟨S8192x64, .f32⟩
  | 122 => ⟨S1x64, .f32⟩
  | 123 => ⟨S8192x64, .f32⟩
  | 124 => ⟨S8192x64, .f32⟩
  | 125 => ⟨S_, .f32⟩
  | 126 => ⟨S8192x64, .f32⟩
  | 127 => ⟨S8192x64, .f32⟩
  | _ => ⟨S8192x128, .f32⟩

abbrev hbmTy0_1 (i : Nat) : BufTy := match i % 128 with
  | 0 => ⟨S64x8192, .f32⟩
  | 1 => ⟨S8192x8192, .f32⟩
  | 2 => ⟨S8192x8192, .f32⟩
  | 3 => ⟨S8192x8192, .f32⟩
  | 4 => ⟨S_, .f32⟩
  | 5 => ⟨S8192x8192, .f32⟩
  | 6 => ⟨S8192x8192, .f32⟩
  | 7 => ⟨S_, .f32⟩
  | 8 => ⟨S8192x8192, .f32⟩
  | 9 => ⟨S8192x8192, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_cst_21 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x64_S8192x64_1_0_0_1_n_n_wf : DotDims.WF S8192x128 S128x64 S8192x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Reg0.lean ====
/- The first pallas_call (custom_call 0): x[8192,128] · W1[128,64] tiled over four row blocks of 2048.
  At a point t the body loads the row block of x and all of W1, multiplies them on the matrix unit into a
  zero accumulator and stores the product over its whole output block. Stated here, at any float family and at
  whatever contents V the unscoped buffers hold when the region is entered: what the output's staging buffer
  holds after the body (one store covering the block), the body's triple, the pipeline's proof data (inputs
  left as fetched, the output at the product of the two input blocks), and the body obligation at every point.
-/
import proofs.«170229_j50938312130791_1_alg».proof.Proof.Gen.Kernel.Launch
import proofs.«170229_j50938312130791_1_alg».proof.Proof.Gen.Kernel.Skeleton
import proofs.«170229_j50938312130791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1 is fetched once, at the first point; its block index never moves, so every later point still finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev rx0 : Rect S2048x128 := Rect.unit (s := S2048x128) ![0, 0] S2048x128.size inb_S2048x128_S2048x128_0_0
abbrev rw0 : Rect S128x64 := Rect.unit (s := S128x64) ![0, 0] S128x64.size inb_S128x64_S128x64_0_0
abbrev ro0 : Rect S2048x64 := Rect.unit (s := S2048x64) ![0, 0] S2048x64.size inb_S2048x64_S2048x64_0_0

/-- The output's staging buffer after the body: its one store, of the product of the two loaded blocks. -/
def out0_2 (x0 : Vec F S2048x128 .f32) (x1 : Vec F S128x64 .f32) : Vec F S2048x64 .f32 :=
  View.canon [⟨ro0, k0_pay1 (View.ld x0 rx0) (View.ld x1 rw0)⟩]

/-- That one store covers the whole block. -/
theorem cover0_2 (p0 : Vec F S2048x64 .f32) (y : S2048x64.Idx) :
    ∃ pc ∈ ([⟨ro0, p0⟩] : List (View.Piece (Elt F) S2048x64 .f32)), y ∈ pc.1.set :=
  View.cover_of_tiled [⟨ro0, p0⟩] S2048x64.size (by rfl) y

set_option maxHeartbeats 1000000 in
/-- The body on whole staging memrefs: the inputs at x0 and x1, the output at anything, run to the inputs unchanged
    and the output at out0_2 x0 x1. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body each input's buffer at
    its block and the output's at the product of the two input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/- The second pallas_call (custom_call 1): h[8192,64] · W2[64,64] tiled over four row blocks of 2048, the same body
  as the first at other extents: the row block of h and all of W2 are loaded, multiplied on the matrix unit into a
  zero accumulator, and the product stored over the whole output block. At any float family and any entry contents
  V: the output's staging buffer after the body, the body's triple, the proof data and the body obligation.
-/
import proofs.«170229_j50938312130791_1_alg».proof.Proof.Gen.Kernel.Launch
import proofs.«170229_j50938312130791_1_alg».proof.Proof.Gen.Kernel.Skeleton
import proofs.«170229_j50938312130791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of h is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W2 is fetched once, at the first point; its block index never moves, so every later point still finds it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev rx1 : Rect S2048x64 := Rect.unit (s := S2048x64) ![0, 0] S2048x64.size inb_S2048x64_S2048x64_0_0
abbrev rw1 : Rect S64x64 := Rect.unit (s := S64x64) ![0, 0] S64x64.size inb_S64x64_S64x64_0_0
abbrev ro1 : Rect S2048x64 := Rect.unit (s := S2048x64) ![0, 0] S2048x64.size inb_S2048x64_S2048x64_0_0

/-- The output's staging buffer after the body: its one store, of the product of the two loaded blocks. -/
def out1_2 (x0 : Vec F S2048x64 .f32) (x1 : Vec F S64x64 .f32) : Vec F S2048x64 .f32 :=
  View.canon [⟨ro1, k1_pay1 (View.ld x0 rx1) (View.ld x1 rw1)⟩]

/-- That one store covers the whole block. -/
theorem cover1_2 (p0 : Vec F S2048x64 .f32) (y : S2048x64.Idx) :
    ∃ pc ∈ ([⟨ro1, p0⟩] : List (View.Piece (Elt F) S2048x64 .f32)), y ∈ pc.1.set :=
  View.cover_of_tiled [⟨ro1, p0⟩] S2048x64.size (by rfl) y

set_option maxHeartbeats 1000000 in
/-- The body on whole staging memrefs: the inputs at x0 and x1, the output at anything, run to the inputs unchanged
    and the output at out1_2 x0 x1. -/
theorem sound_kernel1 (c : Dev nD) (E : Set ℕ) (i : grid1.Coords)
    (arg1 : Memref sig .tc .vmem S2048x64 .f32) (harg1 : arg1.IsWhole) (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core c: the arrays as the region finds them; after the body each input's buffer at
    its block and the output's at the product of the two input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/- The third pallas_call (custom_call 2): sigmoid(h · hᵀ) over an 8 × 8 grid of 1024 × 1024 output tiles. Both input
  windows read the SAME array h: window 0 the row block i, window 1 the row block j; the body contracts their
  feature axes on the matrix unit into a zero accumulator, applies the logistic function and stores the tile whole.
  Since two windows read one array, the proof data hold it at the two halves of the full share, one per window.
  At any float family and any entry contents V: the output's staging buffer after the body, the body's triple, the
  proof data and the body obligation.
-/
import proofs.«170229_j50938312130791_1_alg».proof.Proof.Gen.Kernel.Launch
import proofs.«170229_j50938312130791_1_alg».proof.Proof.Gen.Kernel.Skeleton
import proofs.«170229_j50938312130791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Row block i of h is fetched when i changes (every eighth point); between fetches its block index does not move, so every point finds it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Row block j of h is in its staging buffer at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev rx2 : Rect S1024x64 := Rect.unit (s := S1024x64) ![0, 0] S1024x64.size inb_S1024x64_S1024x64_0_0
abbrev rw2 : Rect S1024x64 := Rect.unit (s := S1024x64) ![0, 0] S1024x64.size inb_S1024x64_S1024x64_0_0
abbrev ro2 : Rect S1024x1024 := Rect.unit (s := S1024x1024) ![0, 0] S1024x1024.size inb_S1024x1024_S1024x1024_0_0

/-- The output's staging buffer after the body: its one store, of the logistic function of the two loaded blocks' contraction. -/
def out2_2 (x0 : Vec F S1024x64 .f32) (x1 : Vec F S1024x64 .f32) : Vec F S1024x1024 .f32 :=
  View.canon [⟨ro2, k2_pay1 (View.ld x0 rx2) (View.ld x1 rw2)⟩]

/-- That one store covers the whole block. -/
theorem cover2_2 (p0 : Vec F S1024x1024 .f32) (y : S1024x1024.Idx) :
    ∃ pc ∈ ([⟨ro2, p0⟩] : List (View.Piece (Elt F) S1024x1024 .f32)), y ∈ pc.1.set :=
  View.cover_of_tiled [⟨ro2, p0⟩] S1024x1024.size (by rfl) y

set_option maxHeartbeats 1000000 in
/-- The body on whole staging memrefs: the inputs at x0 and x1, the output at anything, run to the inputs unchanged
    and the output at out2_2 x0 x1. -/
theorem sound_kernel2 (c : Dev nD) (E : Set ℕ) (i : grid2.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__sim_sigmoid_kernel i arg1 harg1 arg2 harg2 arg3 harg3) K := by
  simp only [cc2__sim_sigmoid_kernel_eq_skeleton]; unfold cc2__sim_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body each input's buffer at
    its block and the output's at the logistic function of the two input blocks' contraction; the invariant is the scoped rest and the
    generator register, untouched; nothing owed; the shared input array at the left half of the full share for window 0 and at the right half for window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
/- The contents of a core's unscoped buffers at every boundary between two items of @main, as a fold from the launch
  memory: a stretch of host operations applies them; the first two kernel regions leave their arrays at what the
  write-backs of all grid points make of them and every other buffer as entered; the third region, whose two input
  windows read one array, changes only its output array. Every pipeline's proof data is taken at its region's entry
  contents.
-/
import proofs.«170229_j50938312130791_1_alg».proof.Proof.K.Reg0
import proofs.«170229_j50938312130791_1_alg».proof.Proof.K.Reg1
import proofs.«170229_j50938312130791_1_alg».proof.Proof.K.Reg2
import proofs.«170229_j50938312130791_1_alg».proof.Proof.Gen.Kernel.Regions

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the first three stretches of host operations (the edge lists with self loops, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0's proof data take. -/
abbrev E3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- After the aggregation of the first layer (gather, scale, scatter-add, bias, relu). -/
abbrev W5 : Dev nD → Valuation τ sig (Elt F) := fun c => StableHlo.after hostOps1 (W4 m c)
abbrev W6 : Dev nD → Valuation τ sig (Elt F) := fun c => StableHlo.after hostOps1_1 (W5 m c)
abbrev E6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- After the aggregation of the second layer. -/
abbrev W8 : Dev nD → Valuation τ sig (Elt F) := fun c => StableHlo.after hostOps2 (W7 m c)
abbrev W9 : Dev nD → Valuation τ sig (Elt F) := fun c => StableHlo.after hostOps2_1 (W8 m c)
abbrev E9 : (c : Dev nD) → (b : Ref sig .tc) → Buf (Elt F) ((c : Thread nD τ).loc b) := fun c b => W9 m c b
/-- At region 2's exit: only its output array changes (both input windows read the layer's activations, which stay). -/
def W10 (c : Dev nD) : Valuation τ sig (Elt F) :=
  Function.update (W9 m c) (Proc.devRef .tc main_v66) ((dat2 (E9 m) c).arrAt 2 cfg2.N)
theorem W10_out (c : Dev nD) : W10 m c (Proc.devRef .tc main_v66) = (dat2 (E9 m) c).arrAt 2 cfg2.N := by
  unfold W10; exact Function.update_self ..
theorem W10_of_ne (c : Dev nD) (b : Ref sig .tc) (hb : b ≠ main_v66) :
    W10 m c (Proc.devRef .tc b) = W9 m c (Proc.devRef .tc b) := by
  unfold W10; exact Function.update_of_ne (StableHlo.devRef_ne_of_ne hb) ..
abbrev E10 : (c : Dev nD) → (b : Ref sig .tc) → Buf (Elt F) ((c : Thread nD τ).loc b) := fun c b => W10 m c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E6 m) c
  | ⟨2, _⟩ => fun c => dat2 (E9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W10 m c) ∗ ∃ r, prngReg c r)

end Cert.Kernel.Fr

end
-- ==== Proof.K.Seg01.lean ====
/- The first two kernel regions as items of @main. Each region's windows read and write pairwise distinct arrays, so
  on entry the arrays are taken out of the core's unscoped buffers at the full share and on exit put back, the output
  array at what the write-backs of all grid points left, every other buffer as it was.
-/
import proofs.«170229_j50938312130791_1_alg».proof.Proof.K.Fold

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Seg2.lean ====
/- The third kernel region as an item of @main. Its two input windows read ONE array (the second layer's activations h),
  so on entry that array's full share is cut in two halves, one per window, and on exit the halves (both still at h:
  an input array is never written) are joined again; the output array is held whole and comes back at what the
  write-backs of all 64 grid points left.
-/
import proofs.«170229_j50938312130791_1_alg».proof.Proof.K.Fold

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 2's arrays: the activations h and the output. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v65) ↦{fullShare} V main_v65) ∗ (((c : Thread nD τ).loc main_v66) ↦{fullShare} V main_v66)) := by
  unfold Pipeline.arrBufs
  rw [show Finset.univ.image (Pipeline.arrRef spec2) = {main_v65, main_v66} from by decide, bigSep_insert (by decide), bigSep_singleton]
  rfl

/-- Region 2's arrays, window by window: h at the left half, h at the right half, the output whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v65) ↦{fullShare.left} G 0) ∗ (((c : Thread nD τ).loc main_v65) ↦{fullShare.right} G 1)
          ∗ (((c : Thread nD τ).loc main_v66) ↦{fullShare} G 2)) := by
  unfold Dat.arrays
  rw [bigSep_W2, (arr_whole2 0).set_eq_univ, (arr_whole2 2).set_eq_univ]
  rfl

/-- A core's unscoped buffers at contents V: h, the output, and the rest. -/
theorem unscopedBufs2_eq (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v65) ↦{fullShare} V main_v65) ∗ (((c : Thread nD τ).loc main_v66) ↦{fullShare} V main_v66))
          ∗ Pipeline.unscopedRest (Ix := Unit) (Name := ℕ) (U := UR sig nD τ) (Lvl := ℕ) spec2 c V) := by
  rw [← arrBufs2_eq]
  exact Pipeline.unscopedBufs_split₀ cfgs 2 winFacts₀2.arr_unscoped c V

/-- Entry: h's full share is cut into the two windows' halves; the output is held whole; the rest stays. -/
theorem entry2 (c : Dev nD) :
    (StableHlo.held (c : Thread nD τ) (Pipeline.ucRefs τ sig) (W9 m c) : sProp 𝕄)
      ⊢ iprop((pdats m 2 c).arrays ((pdats m 2 c).arrAt · 0)
          ∗ Pipeline.unscopedRest (Ix := Unit) (Name := ℕ) (U := UR sig nD τ) (Lvl := ℕ) spec2 c (E9 m c)) := by
  have h := unscopedBufs2_eq c (E9 m c)
  rw [Pipeline.unscopedBufs_held] at h
  rw [h, show pdats m 2 c = dat2 (E9 m) c from rfl, arrays2_eq]
  iintro ⟨⟨H65, H66⟩, Hrest⟩
  ihave H65 := (pointsTo_share (PosShare.mem_left_op_right fullShare)).1 $$ H65
  icases H65 with ⟨Hl, Hr⟩
  isplitr [Hrest]
  · isplitl [Hl]; · iexact Hl
    isplitl [Hr]; · iexact Hr
    iexact H66
  iexact Hrest

/-- Exit: the two halves, both still at h, join to the full share; the output comes back at its final contents; every
    other buffer is as entered. -/
theorem exit2 (c : Dev nD) :
    iprop((pdats m 2 c).arrays ((pdats m 2 c).arrAt · cfg2.N)
          ∗ Pipeline.unscopedRest (Ix := Unit) (Name := ℕ) (U := UR sig nD τ) (Lvl := ℕ) spec2 c (E9 m c))
      ⊢ (StableHlo.held (c : Thread nD τ) (Pipeline.ucRefs τ sig) (W10 m c) : sProp 𝕄) := by
  have h := unscopedBufs2_eq c (E10 m c)
  rw [Pipeline.unscopedBufs_held] at h
  have h0 : (dat2 (E9 m) c).arrAt 0 cfg2.N = E10 m c main_v65 :=
    ((dat2 (E9 m) c).arrAt_in 0 rfl _).trans (W10_of_ne m c main_v65 (by decide)).symm
  have h1 : (dat2 (E9 m) c).arrAt 1 cfg2.N = E10 m c main_v65 :=
    ((dat2 (E9 m) c).arrAt_in 1 rfl _).trans (W10_of_ne m c main_v65 (by decide)).symm
  have h2 : (dat2 (E9 m) c).arrAt 2 cfg2.N = E10 m c main_v66 := (W10_out m c).symm
  have hrest : (Pipeline.unscopedRest (Ix := Unit) (Name := ℕ) (U := UR sig nD τ) (Lvl := ℕ) spec2 c (E9 m c) : sProp 𝕄)
      = Pipeline.unscopedRest (Ix := Unit) (Name := ℕ) (U := UR sig nD τ) (Lvl := ℕ) spec2 c (E10 m c) := by
    unfold Pipeline.unscopedRest
    exact bigSep_congr fun b hb => by
      rw [show E10 m c b = E9 m c b from W10_of_ne m c b fun e => (Finset.mem_sdiff.mp hb).2 (e ▸ by decide)]
  rw [h, show pdats m 2 c = dat2 (E9 m) c from rfl, arrays2_eq, hrest]
  beta_reduce
  rw [h0, h1, h2]
  iintro ⟨⟨Hl, Hr, H66⟩, Hrest⟩
  ihave H65 := (pointsTo_share (PosShare.mem_left_op_right fullShare)).2 $$ [Hl Hr]
  · isplitl [Hl] <;> iassumption
  isplitr [Hrest]
  · isplitl [H65]; · iexact H65
    iexact H66
  iexact Hrest

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m c); isplitl [Ha] <;> iassumption
      iexact HY
    unfold Pipeline.Dat.owesAt Pipeline.owesWithin
    icases HO with ⟨%W, -, HO⟩; iexists W; iexact HO

end Cert.Kernel.Fr

end
-- ==== Proof.K.Run.lean ====
/- @main as its ten items in order (seven stretches of host operations, three kernel regions), launched once: every weakly
  fair execution terminates, and at the end every unscoped buffer of every core holds the last contents of the fold.
  No host operation and no region writes an argument array (a region reads it through an input window or passes it by),
  so the fold at an argument walks back to the launch memory: the frame.
-/
import proofs.«170229_j50938312130791_1_alg».proof.Proof.K.Seg01
import proofs.«170229_j50938312130791_1_alg».proof.Proof.K.Seg2

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's ten items: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m) ]

set_option backward.isDefEq.respectTransparency.types false in
/-- The run: from any memory with zero counters every weakly fair execution of @main terminates, nothing faulting, and
    every unscoped buffer of every core ends at the fold's last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h

/-- A region's input array leaves the region as it entered it. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (E3 m) c).arrAt_in w hw _).trans (A_eq0 (E3 m) c w))
theorem W7_in (c : Dev nD) (w : Fin cfg1.W) (hw : (cfg1.win w).isOut = false) :
    W7 m c (Proc.devRef .tc (Pipeline.arrRef spec1 w)) = W6 m c (Proc.devRef .tc (Pipeline.arrRef spec1 w)) :=
  (W7_arr m c w).trans (((dat1 (E6 m) c).arrAt_in w hw _).trans (A_eq1 (E6 m) c w))

/-- From the last boundary back to region 1's exit, for a buffer nothing after it writes. -/
theorem W10_to_W7 (c : Dev nD) (r : Ref sig .tc) (h66 : r ≠ main_v66) (h2 : r ∉ hostOps2_1_W) (h1 : r ∉ hostOps2_W) :
    W10 m c r = W7 m c r :=
  (W10_of_ne m c r h66).trans ((W9_of m c r h2).trans (W8_of m c r h1))
/-- From region 1's entry back to region 0's exit. -/
theorem W6_to_W4 (c : Dev nD) (r : Ref sig .tc) (h2 : r ∉ hostOps1_1_W) (h1 : r ∉ hostOps1_W) : W6 m c r = W4 m c r :=
  (W6_of m c r h2).trans (W5_of m c r h1)
/-- From region 0's entry back to the launch. -/
theorem W3_to_W0 (c : Dev nD) (r : Ref sig .tc) (h3 : r ∉ hostOps0_2_W) (h2 : r ∉ hostOps0_1_W) (h1 : r ∉ hostOps0_W) :
    W3 m c r = m ((c : Thread nD τ).loc r) :=
  (W3_of m c r h3).trans ((W2_of m c r h2).trans (W1_of m c r h1))

theorem W10_main_arg0 (c : Dev nD) : W10 m c main_arg0 = m ((c : Thread nD τ).loc main_arg0) :=
  (W10_to_W7 m c main_arg0 (by decide) (by decide) (by decide)).trans <| (W7_of_ne m c main_arg0 (by decide)).trans <|
    (W6_to_W4 m c main_arg0 (by decide) (by decide)).trans <| (W4_in m c 0 rfl).trans <| W3_to_W0 m c main_arg0 (by decide) (by decide) (by decide)
theorem W10_main_arg1 (c : Dev nD) : W10 m c main_arg1 = m ((c : Thread nD τ).loc main_arg1) :=
  (W10_to_W7 m c main_arg1 (by decide) (by decide) (by decide)).trans <| (W7_of_ne m c main_arg1 (by decide)).trans <|
    (W6_to_W4 m c main_arg1 (by decide) (by decide)).trans <| (W4_of_ne m c main_arg1 (by decide)).trans <| W3_to_W0 m c main_arg1 (by decide) (by decide) (by decide)
theorem W10_main_arg2 (c : Dev nD) : W10 m c main_arg2 = m ((c : Thread nD τ).loc main_arg2) :=
  (W10_to_W7 m c main_arg2 (by decide) (by decide) (by decide)).trans <| (W7_of_ne m c main_arg2 (by decide)).trans <|
    (W6_to_W4 m c main_arg2 (by decide) (by decide)).trans <| (W4_in m c 1 rfl).trans <| W3_to_W0 m c main_arg2 (by decide) (by decide) (by decide)
theorem W10_main_arg3 (c : Dev nD) : W10 m c main_arg3 = m ((c : Thread nD τ).loc main_arg3) :=
  (W10_to_W7 m c main_arg3 (by decide) (by decide) (by decide)).trans <| (W7_of_ne m c main_arg3 (by decide)).trans <|
    (W6_to_W4 m c main_arg3 (by decide) (by decide)).trans <| (W4_of_ne m c main_arg3 (by decide)).trans <| W3_to_W0 m c main_arg3 (by decide) (by decide) (by decide)
theorem W10_main_arg4 (c : Dev nD) : W10 m c main_arg4 = m ((c : Thread nD τ).loc main_arg4) :=
  (W10_to_W7 m c main_arg4 (by decide) (by decide) (by decide)).trans <| (W7_in m c 1 rfl).trans <|
    (W6_to_W4 m c main_arg4 (by decide) (by decide)).trans <| (W4_of_ne m c main_arg4 (by decide)).trans <| W3_to_W0 m c main_arg4 (by decide) (by decide) (by decide)
theorem W10_main_arg5 (c : Dev nD) : W10 m c main_arg5 = m ((c : Thread nD τ).loc main_arg5) :=
  (W10_to_W7 m c main_arg5 (by decide) (by decide) (by decide)).trans <| (W7_of_ne m c main_arg5 (by decide)).trans <|
    (W6_to_W4 m c main_arg5 (by decide) (by decide)).trans <| (W4_of_ne m c main_arg5 (by decide)).trans <| W3_to_W0 m c main_arg5 (by decide) (by decide) (by decide)

/-- The frame, at any float family: the run, with each argument read back through the fold. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c)⟩) (run_all m ρ)

end Cert.Kernel.Fr

end
-- ==== Proof.KI.Reg0.lean ====
/-
  The first pallas_call (custom_call 0): x[8192,128] · W1[128,64] tiled over four row blocks of 2048.
  At a point t the body loads the row block of x and all of W1, multiplies them on the matrix unit into a
  zero accumulator and stores the product over its whole output block. Stated here, at any float family and at
  whatever contents V the unscoped buffers hold when the region is entered: what the output's staging buffer
  holds after the body (one store covering the block), the body's triple, the pipeline's proof data (inputs
  left as fetched, the output at the product of the two input blocks), and the body obligation at every point.
-/
import proofs.«170229_j50938312130791_1_alg».proof.Proof.Gen.KernelIdeal.Launch
import proofs.«170229_j50938312130791_1_alg».proof.Proof.Gen.KernelIdeal.Skeleton
import proofs.«170229_j50938312130791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W1 is fetched once, at the first point; its block index never moves, so every later point still finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-block rectangles the body reads and writes through. -/
abbrev rx0 : Rect S2048x128 := Rect.unit (s := S2048x128) ![0, 0] S2048x128.size inb_S2048x128_S2048x128_0_0
abbrev rw0 : Rect S128x64 := Rect.unit (s := S128x64) ![0, 0] S128x64.size inb_S128x64_S128x64_0_0
abbrev ro0 : Rect S2048x64 := Rect.unit (s := S2048x64) ![0, 0] S2048x64.size inb_S2048x64_S2048x64_0_0

/-- The output's staging buffer after the body: its one store, of the product of the two loaded blocks. -/
def out0_2 (x0 : Vec F S2048x128 .f32) (x1 : Vec F S128x64 .f32) : Vec F S2048x64 .f32 :=
  View.canon [⟨ro0, k0_pay1 (View.ld x0 rx0) (View.ld x1 rw0)⟩]

/-- That one store covers the whole block. -/
theorem cover0_2 (p0 : Vec F S2048x64 .f32) (y : S2048x64.Idx) :
    ∃ pc ∈ ([⟨ro0, p0⟩] : List (View.Piece (Elt F) S2048x64 .f32)), y ∈ pc.1.set :=
  View.cover_of_tiled [⟨ro0, p0⟩] S2048x64.size (by rfl) y

set_option maxHeartbeats 1000000 in
/-- The body on whole staging memrefs: the inputs at x0 and x1, the output at anything, run to the inputs unchanged
    and the output at out0_2 x0 x1. -/
theorem sound_kernel0 (c : Dev nD) (E : Set ℕ) (i : grid0.Coords)
    (arg1 : Memref sig .tc .vmem S2048x128 .f32) (harg1 : arg1.IsWhole) (arg2 : Memref sig .tc .vmem S128x64 .f32) (harg2 : arg2.IsWhole)
    (arg3 : Memref sig .tc .vmem S2048x64 .f32) (harg3 : arg3.IsWhole)
    (x0 : Vec F S2048x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core c: the arrays as the region finds them; after the body each input's buffer at
    its block and the output's at the product of the two input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/- The second pallas_call (custom_call 1): h[8192,64] · W2[64,64] tiled over four row blocks of 2048, the same body
  as the first at other extents: the row block of h and all of W2 are loaded, multiplied on the matrix unit into a
  zero accumulator, and the product stored over the whole output block. At any float family and any entry contents
  V: the output's staging buffer after the body, the body's triple, the proof data and the body obligation.
-/
import proofs.«170229_j50938312130791_1_alg».proof.Proof.Gen.KernelIdeal.Launch
import proofs.«170229_j50938312130791_1_alg».proof.Proof.Gen.KernelIdeal.Skeleton
import proofs.«170229_j50938312130791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of h is in its staging buffer at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- W2 is fetched once, at the first point; its block index never moves, so every later point still finds it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The three whole-block rectangles the body reads and writes through. -/
abbrev rx1 : Rect S2048x64 := Rect.unit (s := S2048x64) ![0, 0] S2048x64.size inb_S2048x64_S2048x64_0_0
abbrev rw1 : Rect S64x64 := Rect.unit (s := S64x64) ![0, 0] S64x64.size inb_S64x64_S64x64_0_0
abbrev ro1 : Rect S2048x64 := Rect.unit (s := S2048x64) ![0, 0] S2048x64.size inb_S2048x64_S2048x64_0_0

/-- The output's staging buffer after the body: its one store, of the product of the two loaded blocks. -/
def out1_2 (x0 : Vec F S2048x64 .f32) (x1 : Vec F S64x64 .f32) : Vec F S2048x64 .f32 :=
  View.canon [⟨ro1, k1_pay1 (View.ld x0 rx1) (View.ld x1 rw1)⟩]

/-- That one store covers the whole block. -/
theorem cover1_2 (p0 : Vec F S2048x64 .f32) (y : S2048x64.Idx) :
    ∃ pc ∈ ([⟨ro1, p0⟩] : List (View.Piece (Elt F) S2048x64 .f32)), y ∈ pc.1.set :=
  View.cover_of_tiled [⟨ro1, p0⟩] S2048x64.size (by rfl) y

set_option maxHeartbeats 1000000 in
/-- The body on whole staging memrefs: the inputs at x0 and x1, the output at anything, run to the inputs unchanged
    and the output at out1_2 x0 x1. -/
theorem sound_kernel1 (c : Dev nD) (E : Set ℕ) (i : grid1.Coords)
    (arg1 : Memref sig .tc .vmem S2048x64 .f32) (harg1 : arg1.IsWhole) (arg2 : Memref sig .tc .vmem S64x64 .f32) (harg2 : arg2.IsWhole)
    (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core c: the arrays as the region finds them; after the body each input's buffer at
    its block and the output's at the product of the two input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: both inputs' memrefs hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/- The third pallas_call (custom_call 2): sigmoid(h · hᵀ) over an 8 × 8 grid of 1024 × 1024 output tiles. Both input
  windows read the SAME array h: window 0 the row block i, window 1 the row block j; the body contracts their
  feature axes on the matrix unit into a zero accumulator, applies the logistic function and stores the tile whole.
  Since two windows read one array, the proof data hold it at the two halves of the full share, one per window.
  At any float family and any entry contents V: the output's staging buffer after the body, the body's triple, the
  proof data and the body obligation.
-/
import proofs.«170229_j50938312130791_1_alg».proof.Proof.Gen.KernelIdeal.Launch
import proofs.«170229_j50938312130791_1_alg».proof.Proof.Gen.KernelIdeal.Skeleton
import proofs.«170229_j50938312130791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Row block i of h is fetched when i changes (every eighth point); between fetches its block index does not move, so every point finds it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Row block j of h is in its staging buffer at every point (it is fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three whole-block rectangles the body reads and writes through. -/
abbrev rx2 : Rect S1024x64 := Rect.unit (s := S1024x64) ![0, 0] S1024x64.size inb_S1024x64_S1024x64_0_0
abbrev rw2 : Rect S1024x64 := Rect.unit (s := S1024x64) ![0, 0] S1024x64.size inb_S1024x64_S1024x64_0_0
abbrev ro2 : Rect S1024x1024 := Rect.unit (s := S1024x1024) ![0, 0] S1024x1024.size inb_S1024x1024_S1024x1024_0_0

/-- The output's staging buffer after the body: its one store, of the logistic function of the two loaded blocks' contraction. -/
def out2_2 (x0 : Vec F S1024x64 .f32) (x1 : Vec F S1024x64 .f32) : Vec F S1024x1024 .f32 :=
  View.canon [⟨ro2, k2_pay1 (View.ld x0 rx2) (View.ld x1 rw2)⟩]

/-- That one store covers the whole block. -/
theorem cover2_2 (p0 : Vec F S1024x1024 .f32) (y : S1024x1024.Idx) :
    ∃ pc ∈ ([⟨ro2, p0⟩] : List (View.Piece (Elt F) S1024x1024 .f32)), y ∈ pc.1.set :=
  View.cover_of_tiled [⟨ro2, p0⟩] S1024x1024.size (by rfl) y

set_option maxHeartbeats 1000000 in
/-- The body on whole staging memrefs: the inputs at x0 and x1, the output at anything, run to the inputs unchanged
    and the output at out2_2 x0 x1. -/
theorem sound_kernel2 (c : Dev nD) (E : Set ℕ) (i : grid2.Coords)
    (arg1 : Memref sig .tc .vmem S1024x64 .f32) (harg1 : arg1.IsWhole) (arg2 : Memref sig .tc .vmem S1024x64 .f32) (harg2 : arg2.IsWhole)
    (arg3 : Memref sig .tc .vmem S1024x1024 .f32) (harg3 : arg3.IsWhole)
    (x0 : Vec F S1024x64 .f32) (x1 : Vec F S1024x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__sim_sigmoid_kernel i arg1 harg1 arg2 harg2 arg3 harg3) K := by
  simp only [cc2__sim_sigmoid_kernel_eq_skeleton]; unfold cc2__sim_sigmoid_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core c: the arrays as the region finds them; after the body each input's buffer at
    its block and the output's at the logistic function of the two input blocks' contraction; the invariant is the scoped rest and the
    generator register, untouched; nothing owed; the shared input array at the left half of the full share for window 0 and at the right half for window 1. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
/-
  The contents of a core's unscoped buffers at every boundary between two items of @main, as a fold from the launch
  memory: a stretch of host operations applies them; the first two kernel regions leave their arrays at what the
  write-backs of all grid points make of them and every other buffer as entered; the third region, whose two input
  windows read one array, changes only its output array. Every pipeline's proof data is taken at its region's entry
  contents.
-/
import proofs.«170229_j50938312130791_1_alg».proof.Proof.KI.Reg0
import proofs.«170229_j50938312130791_1_alg».proof.Proof.KI.Reg1
import proofs.«170229_j50938312130791_1_alg».proof.Proof.KI.Reg2
import proofs.«170229_j50938312130791_1_alg».proof.Proof.Gen.KernelIdeal.Regions

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the first three stretches of host operations (the edge lists with self loops, the degrees, the normalisation). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references: what region 0's proof data take. -/
abbrev E3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- After the aggregation of the first layer (gather, scale, scatter-add, bias, relu). -/
abbrev W5 : Dev nD → Valuation τ sig (Elt F) := fun c => StableHlo.after hostOps1 (W4 m c)
abbrev W6 : Dev nD → Valuation τ sig (Elt F) := fun c => StableHlo.after hostOps1_1 (W5 m c)
abbrev E6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)

/-- After the aggregation of the second layer. -/
abbrev W8 : Dev nD → Valuation τ sig (Elt F) := fun c => StableHlo.after hostOps2 (W7 m c)
abbrev W9 : Dev nD → Valuation τ sig (Elt F) := fun c => StableHlo.after hostOps2_1 (W8 m c)
abbrev E9 : (c : Dev nD) → (b : Ref sig .tc) → Buf (Elt F) ((c : Thread nD τ).loc b) := fun c b => W9 m c b
/-- At region 2's exit: only its output array changes (both input windows read the layer's activations, which stay). -/
def W10 (c : Dev nD) : Valuation τ sig (Elt F) :=
  Function.update (W9 m c) (Proc.devRef .tc main_v66) ((dat2 (E9 m) c).arrAt 2 cfg2.N)
theorem W10_out (c : Dev nD) : W10 m c (Proc.devRef .tc main_v66) = (dat2 (E9 m) c).arrAt 2 cfg2.N := by
  unfold W10; exact Function.update_self ..
theorem W10_of_ne (c : Dev nD) (b : Ref sig .tc) (hb : b ≠ main_v66) :
    W10 m c (Proc.devRef .tc b) = W9 m c (Proc.devRef .tc b) := by
  unfold W10; exact Function.update_of_ne (StableHlo.devRef_ne_of_ne hb) ..
abbrev E10 : (c : Dev nD) → (b : Ref sig .tc) → Buf (Elt F) ((c : Thread nD τ).loc b) := fun c b => W10 m c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E6 m) c
  | ⟨2, _⟩ => fun c => dat2 (E9 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W10 m c) ∗ ∃ r, prngReg c r)

end Cert.KernelIdeal.Fr

end
-- ==== Proof.KI.Seg01.lean ====
/-
  The first two kernel regions as items of @main. Each region's windows read and write pairwise distinct arrays, so
  on entry the arrays are taken out of the core's unscoped buffers at the full share and on exit put back, the output
  array at what the write-backs of all grid points left, every other buffer as it was.
-/
import proofs.«170229_j50938312130791_1_alg».proof.Proof.KI.Fold

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it. Its arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  The third kernel region as an item of @main. Its two input windows read ONE array (the second layer's activations h),
  so on entry that array's full share is cut in two halves, one per window, and on exit the halves (both still at h:
  an input array is never written) are joined again; the output array is held whole and comes back at what the
  write-backs of all 64 grid points left.
-/
import proofs.«170229_j50938312130791_1_alg».proof.Proof.KI.Fold

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 2's arrays: the activations h and the output. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v65) ↦{fullShare} V main_v65) ∗ (((c : Thread nD τ).loc main_v66) ↦{fullShare} V main_v66)) := by
  unfold Pipeline.arrBufs
  rw [show Finset.univ.image (Pipeline.arrRef spec2) = {main_v65, main_v66} from by decide, bigSep_insert (by decide), bigSep_singleton]
  rfl

/-- Region 2's arrays, window by window: h at the left half, h at the right half, the output whole. -/
theorem arrays2_eq (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v65) ↦{fullShare.left} G 0) ∗ (((c : Thread nD τ).loc main_v65) ↦{fullShare.right} G 1)
          ∗ (((c : Thread nD τ).loc main_v66) ↦{fullShare} G 2)) := by
  unfold Dat.arrays
  rw [bigSep_W2, (arr_whole2 0).set_eq_univ, (arr_whole2 2).set_eq_univ]
  rfl

/-- A core's unscoped buffers at contents V: h, the output, and the rest. -/
theorem unscopedBufs2_eq (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v65) ↦{fullShare} V main_v65) ∗ (((c : Thread nD τ).loc main_v66) ↦{fullShare} V main_v66))
          ∗ Pipeline.unscopedRest (Ix := Unit) (Name := ℕ) (U := UR sig nD τ) (Lvl := ℕ) spec2 c V) := by
  rw [← arrBufs2_eq]
  exact Pipeline.unscopedBufs_split₀ cfgs 2 winFacts₀2.arr_unscoped c V

/-- Entry: h's full share is cut into the two windows' halves; the output is held whole; the rest stays. -/
theorem entry2 (c : Dev nD) :
    (StableHlo.held (c : Thread nD τ) (Pipeline.ucRefs τ sig) (W9 m c) : sProp 𝕄)
      ⊢ iprop((pdats m 2 c).arrays ((pdats m 2 c).arrAt · 0)
          ∗ Pipeline.unscopedRest (Ix := Unit) (Name := ℕ) (U := UR sig nD τ) (Lvl := ℕ) spec2 c (E9 m c)) := by
  have h := unscopedBufs2_eq c (E9 m c)
  rw [Pipeline.unscopedBufs_held] at h
  rw [h, show pdats m 2 c = dat2 (E9 m) c from rfl, arrays2_eq]
  iintro ⟨⟨H65, H66⟩, Hrest⟩
  ihave H65 := (pointsTo_share (PosShare.mem_left_op_right fullShare)).1 $$ H65
  icases H65 with ⟨Hl, Hr⟩
  isplitr [Hrest]
  · isplitl [Hl]; · iexact Hl
    isplitl [Hr]; · iexact Hr
    iexact H66
  iexact Hrest

/-- Exit: the two halves, both still at h, join to the full share; the output comes back at its final contents; every
    other buffer is as entered. -/
theorem exit2 (c : Dev nD) :
    iprop((pdats m 2 c).arrays ((pdats m 2 c).arrAt · cfg2.N)
          ∗ Pipeline.unscopedRest (Ix := Unit) (Name := ℕ) (U := UR sig nD τ) (Lvl := ℕ) spec2 c (E9 m c))
      ⊢ (StableHlo.held (c : Thread nD τ) (Pipeline.ucRefs τ sig) (W10 m c) : sProp 𝕄) := by
  have h := unscopedBufs2_eq c (E10 m c)
  rw [Pipeline.unscopedBufs_held] at h
  have h0 : (dat2 (E9 m) c).arrAt 0 cfg2.N = E10 m c main_v65 :=
    ((dat2 (E9 m) c).arrAt_in 0 rfl _).trans (W10_of_ne m c main_v65 (by decide)).symm
  have h1 : (dat2 (E9 m) c).arrAt 1 cfg2.N = E10 m c main_v65 :=
    ((dat2 (E9 m) c).arrAt_in 1 rfl _).trans (W10_of_ne m c main_v65 (by decide)).symm
  have h2 : (dat2 (E9 m) c).arrAt 2 cfg2.N = E10 m c main_v66 := (W10_out m c).symm
  have hrest : (Pipeline.unscopedRest (Ix := Unit) (Name := ℕ) (U := UR sig nD τ) (Lvl := ℕ) spec2 c (E9 m c) : sProp 𝕄)
      = Pipeline.unscopedRest (Ix := Unit) (Name := ℕ) (U := UR sig nD τ) (Lvl := ℕ) spec2 c (E10 m c) := by
    unfold Pipeline.unscopedRest
    exact bigSep_congr fun b hb => by
      rw [show E10 m c b = E9 m c b from W10_of_ne m c b fun e => (Finset.mem_sdiff.mp hb).2 (e ▸ by decide)]
  rw [h, show pdats m 2 c = dat2 (E9 m) c from rfl, arrays2_eq, hrest]
  beta_reduce
  rw [h0, h1, h2]
  iintro ⟨⟨Hl, Hr, H66⟩, Hrest⟩
  ihave H65 := (pointsTo_share (PosShare.mem_left_op_right fullShare)).2 $$ [Hl Hr]
  · isplitl [Hl] <;> iassumption
  isplitr [Hrest]
  · isplitl [H65]; · iexact H65
    iexact H66
  iexact Hrest

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    iintro ⟨⟨Hub, Hp, HO⟩, -, -⟩
    ihave H := (entry2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m c); isplitl [Ha] <;> iassumption
      iexact HY
    unfold Pipeline.Dat.owesAt Pipeline.owesWithin
    icases HO with ⟨%W, -, HO⟩; iexists W; iexact HO

end Cert.KernelIdeal.Fr

end
-- ==== Proof.KI.Run.lean ====
/-
  @main as its ten items in order (seven stretches of host operations, three kernel regions), launched once: every weakly
  fair execution terminates, and at the end every unscoped buffer of every core holds the last contents of the fold.
  No host operation and no region writes an argument array (a region reads it through an input window or passes it by),
  so the fold at an argument walks back to the launch memory: the frame.
-/
import proofs.«170229_j50938312130791_1_alg».proof.Proof.KI.Seg01
import proofs.«170229_j50938312130791_1_alg».proof.Proof.KI.Seg2

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's ten items: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .region (reg2 m) ]

set_option backward.isDefEq.respectTransparency.types false in
/-- The run: from any memory with zero counters every weakly fair execution of @main terminates, nothing faulting, and
    every unscoped buffer of every core ends at the fold's last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ hostOps1_1_W) : W6 m c r = W5 m c r :=
  StableHlo.after_of_writes_sub hostOps1_1 _ hostOps1_1_writes h
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ hostOps2_1_W) : W9 m c r = W8 m c r :=
  StableHlo.after_of_writes_sub hostOps2_1 _ hostOps2_1_writes h

/-- A region's input array leaves the region as it entered it. -/
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (E3 m) c).arrAt_in w hw _).trans (A_eq0 (E3 m) c w))
theorem W7_in (c : Dev nD) (w : Fin cfg1.W) (hw : (cfg1.win w).isOut = false) :
    W7 m c (Proc.devRef .tc (Pipeline.arrRef spec1 w)) = W6 m c (Proc.devRef .tc (Pipeline.arrRef spec1 w)) :=
  (W7_arr m c w).trans (((dat1 (E6 m) c).arrAt_in w hw _).trans (A_eq1 (E6 m) c w))

/-- From the last boundary back to region 1's exit, for a buffer nothing after it writes. -/
theorem W10_to_W7 (c : Dev nD) (r : Ref sig .tc) (h66 : r ≠ main_v66) (h2 : r ∉ hostOps2_1_W) (h1 : r ∉ hostOps2_W) :
    W10 m c r = W7 m c r :=
  (W10_of_ne m c r h66).trans ((W9_of m c r h2).trans (W8_of m c r h1))
/-- From region 1's entry back to region 0's exit. -/
theorem W6_to_W4 (c : Dev nD) (r : Ref sig .tc) (h2 : r ∉ hostOps1_1_W) (h1 : r ∉ hostOps1_W) : W6 m c r = W4 m c r :=
  (W6_of m c r h2).trans (W5_of m c r h1)
/-- From region 0's entry back to the launch. -/
theorem W3_to_W0 (c : Dev nD) (r : Ref sig .tc) (h3 : r ∉ hostOps0_2_W) (h2 : r ∉ hostOps0_1_W) (h1 : r ∉ hostOps0_W) :
    W3 m c r = m ((c : Thread nD τ).loc r) :=
  (W3_of m c r h3).trans ((W2_of m c r h2).trans (W1_of m c r h1))

theorem W10_main_arg0 (c : Dev nD) : W10 m c main_arg0 = m ((c : Thread nD τ).loc main_arg0) :=
  (W10_to_W7 m c main_arg0 (by decide) (by decide) (by decide)).trans <| (W7_of_ne m c main_arg0 (by decide)).trans <|
    (W6_to_W4 m c main_arg0 (by decide) (by decide)).trans <| (W4_in m c 0 rfl).trans <| W3_to_W0 m c main_arg0 (by decide) (by decide) (by decide)
theorem W10_main_arg1 (c : Dev nD) : W10 m c main_arg1 = m ((c : Thread nD τ).loc main_arg1) :=
  (W10_to_W7 m c main_arg1 (by decide) (by decide) (by decide)).trans <| (W7_of_ne m c main_arg1 (by decide)).trans <|
    (W6_to_W4 m c main_arg1 (by decide) (by decide)).trans <| (W4_of_ne m c main_arg1 (by decide)).trans <| W3_to_W0 m c main_arg1 (by decide) (by decide) (by decide)
theorem W10_main_arg2 (c : Dev nD) : W10 m c main_arg2 = m ((c : Thread nD τ).loc main_arg2) :=
  (W10_to_W7 m c main_arg2 (by decide) (by decide) (by decide)).trans <| (W7_of_ne m c main_arg2 (by decide)).trans <|
    (W6_to_W4 m c main_arg2 (by decide) (by decide)).trans <| (W4_in m c 1 rfl).trans <| W3_to_W0 m c main_arg2 (by decide) (by decide) (by decide)
theorem W10_main_arg3 (c : Dev nD) : W10 m c main_arg3 = m ((c : Thread nD τ).loc main_arg3) :=
  (W10_to_W7 m c main_arg3 (by decide) (by decide) (by decide)).trans <| (W7_of_ne m c main_arg3 (by decide)).trans <|
    (W6_to_W4 m c main_arg3 (by decide) (by decide)).trans <| (W4_of_ne m c main_arg3 (by decide)).trans <| W3_to_W0 m c main_arg3 (by decide) (by decide) (by decide)
theorem W10_main_arg4 (c : Dev nD) : W10 m c main_arg4 = m ((c : Thread nD τ).loc main_arg4) :=
  (W10_to_W7 m c main_arg4 (by decide) (by decide) (by decide)).trans <| (W7_in m c 1 rfl).trans <|
    (W6_to_W4 m c main_arg4 (by decide) (by decide)).trans <| (W4_of_ne m c main_arg4 (by decide)).trans <| W3_to_W0 m c main_arg4 (by decide) (by decide) (by decide)
theorem W10_main_arg5 (c : Dev nD) : W10 m c main_arg5 = m ((c : Thread nD τ).loc main_arg5) :=
  (W10_to_W7 m c main_arg5 (by decide) (by decide) (by decide)).trans <| (W7_of_ne m c main_arg5 (by decide)).trans <|
    (W6_to_W4 m c main_arg5 (by decide) (by decide)).trans <| (W4_of_ne m c main_arg5 (by decide)).trans <| W3_to_W0 m c main_arg5 (by decide) (by decide) (by decide)

/-- The frame, at any float family: the run, with each argument read back through the fold. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c)⟩) (run_all m ρ)

end Cert.KernelIdeal.Fr

end
-- ==== Proof.Val.Spec.lean ====
/-
  The host computation both programs share, as named functions of the arguments (at any float family).
  From the edge list e (row 0 the sources, row 1 the destinations) both programs append the self loops, count each
  node's in-degree by a scatter-add of ones, take dinv = rsqrt(deg) where deg > 0 and 0 elsewhere, and weight edge k
  by norm k = dinv(src k) · dinv(dst k). A layer's aggregation of a linear transform hlin with bias b is
  relu(Σ_{k : dst k = v} hlin(src k, ·) · norm k + b). The result is the logistic function, spelt 1 / (1 + exp(−s)),
  of s = h · hᵀ.
-/
import proofs.«170229_j50938312130791_1_alg».proof.ReferenceIdeal
import proofs.«170229_j50938312130791_1_alg».proof.Proof.Gen.ReferenceIdeal

noncomputable section

namespace Cert.Spec

open Cert.ReferenceIdeal Cert.ReferenceIdeal.Gen Idealize.ShloMosaic

variable {F : FTy → Type} [FloatOps F]

/-- The source node of every edge, the self loops (node v to node v) appended. -/
def srcL (e : (⟨S2x262144, .i32⟩ : BufTy).Contents (Elt F)) : (⟨S270336, .i32⟩ : BufTy).Contents (Elt F) :=
  concatenate S270336 0 [⟨S262144, (shapeCast _ (extractStridedSlice S1x262144 ![0, 0] e slices_S2x262144_S1x262144_0_0) shapeCasts_S1x262144_S262144)⟩, ⟨S8192, (iotaInDim S8192 32 0)⟩] concatenates_S262144_S8192_S270336_d0

/-- The destination node of every edge, the self loops appended. -/
def dstL (e : (⟨S2x262144, .i32⟩ : BufTy).Contents (Elt F)) : (⟨S270336, .i32⟩ : BufTy).Contents (Elt F) :=
  concatenate S270336 0 [⟨S262144, (shapeCast _ (extractStridedSlice S1x262144 ![1, 0] e slices_S2x262144_S1x262144_1_0) shapeCasts_S1x262144_S262144)⟩, ⟨S8192, (iotaInDim S8192 32 0)⟩] concatenates_S262144_S8192_S270336_d0

/-- A negative index counts from the end: x + 8192 where x < 0, x elsewhere. -/
def wrapIx (x : (⟨S270336, .i32⟩ : BufTy).Contents (Elt F)) : (⟨S270336, .i32⟩ : BufTy).Contents (Elt F) :=
  select (cmpi .slt x (broadcastInDim S270336 ![] bcast_S_S270336 (constantI S_ 32 0#32))) (addi x (broadcastInDim S270336 ![] bcast_S_S270336 (constantI S_ 32 8192#32))) x

/-- Each node's in-degree, self loop included: a scatter-add of ones at the destinations. -/
def deg (e : (⟨S2x262144, .i32⟩ : BufTy).Contents (Elt F)) : (⟨S8192, .f32⟩ : BufTy).Contents (Elt F) :=
  Host.scatterAdd scatter_S8192_S270336x1_S270336_n_0_0_1 (broadcastInDim S8192 ![] bcast_S_S8192 (constant S_ .f32 0x00000000#32)) (broadcastInDim S270336x1 ![0] bcast_S270336_S270336x1_0 (dstL e)) (broadcastInDim S270336 ![] bcast_S_S270336 (constant S_ .f32 0x3F800000#32))

/-- deg^(-1/2) where deg > 0, else 0. -/
def dinv (e : (⟨S2x262144, .i32⟩ : BufTy).Contents (Elt F)) : (⟨S8192, .f32⟩ : BufTy).Contents (Elt F) :=
  select (cmpf (F := F) .ogt (deg e) (broadcastInDim S8192 ![] bcast_S_S8192 (constant S_ .f32 0x00000000#32))) (Host.rsqrt (deg e)) (broadcastInDim S8192 ![] bcast_S_S8192 (id (constant S_ .f32 0x00000000#32)))

/-- The symmetric normalisation of edge k: dinv(src k) · dinv(dst k). -/
def norm (e : (⟨S2x262144, .i32⟩ : BufTy).Contents (Elt F)) : (⟨S270336, .f32⟩ : BufTy).Contents (Elt F) :=
  mulf (Host.gather gather_S8192_S270336x1_S270336_n_0_n_n_0_1_1 (dinv e) (broadcastInDim S270336x1 ![0] bcast_S270336_S270336x1_0 (wrapIx (srcL e))))
    (Host.gather gather_S8192_S270336x1_S270336_n_0_n_n_0_1_1 (dinv e) (broadcastInDim S270336x1 ![0] bcast_S270336_S270336x1_0 (wrapIx (dstL e))))

/-- One layer's aggregation: relu(segment_sum(hlin[src] · norm, dst) + b). -/
def agg (e : (⟨S2x262144, .i32⟩ : BufTy).Contents (Elt F)) (hlin : (⟨S8192x64, .f32⟩ : BufTy).Contents (Elt F)) (b : (⟨S64, .f32⟩ : BufTy).Contents (Elt F)) :
    (⟨S8192x64, .f32⟩ : BufTy).Contents (Elt F) :=
  maximumf (addf (Host.scatterAdd scatter_S8192x64_S270336x1_S270336x64_1_0_0_1 (broadcastInDim S8192x64 ![] bcast_S_S8192x64 (constant S_ .f32 0x00000000#32)) (broadcastInDim S270336x1 ![0] bcast_S270336_S270336x1_0 (dstL e))
      (mulf (Host.gather gather_S8192x64_S270336x1_S270336x64_1_0_n_n_0_1_164 hlin (broadcastInDim S270336x1 ![0] bcast_S270336_S270336x1_0 (wrapIx (srcL e))))
        (broadcastInDim S270336x64 ![0, 1] bcast_S270336x1_S270336x64_0_1 (broadcastInDim S270336x1 ![0] bcast_S270336_S270336x1_0 (norm e)))))
      (broadcastInDim S8192x64 ![0, 1] bcast_S1x64_S8192x64_0_1 (broadcastInDim S1x64 ![1] bcast_S64_S1x64_1 b)))
    (broadcastInDim S8192x64 ![] bcast_S_S8192x64 (constant S_ .f32 0x00000000#32))

/-- The first layer's linear transform, x · W1. -/
def lin0 (x : (⟨S8192x128, .f32⟩ : BufTy).Contents (Elt F)) (w : (⟨S128x64, .f32⟩ : BufTy).Contents (Elt F)) : (⟨S8192x64, .f32⟩ : BufTy).Contents (Elt F) :=
  Host.dotGeneral dot_S8192x128_S128x64_S8192x64_1_0_0_1_n_n none x w

/-- The second layer's linear transform, h · W2. -/
def lin1 (h : (⟨S8192x64, .f32⟩ : BufTy).Contents (Elt F)) (w : (⟨S64x64, .f32⟩ : BufTy).Contents (Elt F)) : (⟨S8192x64, .f32⟩ : BufTy).Contents (Elt F) :=
  Host.dotGeneral dot_S8192x64_S64x64_S8192x64_1_0_0_1_n_n none h w

/-- The similarity matrix under the logistic function: 1 / (1 + exp(−(h · hᵀ))). -/
def sim (h : (⟨S8192x64, .f32⟩ : BufTy).Contents (Elt F)) : (⟨S8192x8192, .f32⟩ : BufTy).Contents (Elt F) :=
  Host.divf (broadcastInDim S8192x8192 ![] bcast_S_S8192x8192 (constant S_ .f32 0x3F800000#32)) (addf (broadcastInDim S8192x8192 ![] bcast_S_S8192x8192 (constant S_ .f32 0x3F800000#32))
    (Host.exp (Host.negf (Host.dotGeneral dot_S8192x64_S64x8192_S8192x8192_1_0_0_1_n_n none h (transpose S64x8192 [1, 0] h transposes_S8192x64_S64x8192_1_0)))))

/-- The whole computation from the six arguments. -/
def result (x : (⟨S8192x128, .f32⟩ : BufTy).Contents (Elt F)) (e : (⟨S2x262144, .i32⟩ : BufTy).Contents (Elt F)) (w1 : (⟨S128x64, .f32⟩ : BufTy).Contents (Elt F))
    (b1 : (⟨S64, .f32⟩ : BufTy).Contents (Elt F)) (w2 : (⟨S64x64, .f32⟩ : BufTy).Contents (Elt F)) (b2 : (⟨S64, .f32⟩ : BufTy).Contents (Elt F)) :
    (⟨S8192x8192, .f32⟩ : BufTy).Contents (Elt F) :=
  sim (agg e (lin1 (agg e (lin0 x w1) b1) w2) b2)

end Cert.Spec

end
-- ==== Proof.Val.RefVal.lean ====
/-
  The reference's result is the shared computation of its six arguments: its composed term, opened, is literally the
  named functions of Val/Spec (the reference recomputes the edge normalisation for its second layer from the same
  operations, so both layers' aggregations are one function of the edge list).
-/
import proofs.«170229_j50938312130791_1_alg».proof.Proof.RefRun
import proofs.«170229_j50938312130791_1_alg».proof.Proof.Val.Spec

noncomputable section

namespace Cert.ReferenceIdeal.RefValue

open Cert.ReferenceIdeal Cert.ReferenceIdeal.ValueP Idealize.ShloMosaic Idealize.ShloMosaic.TcCoe Idealize.SL.Sem

variable {F : FTy → Type} [FloatOps F]

set_option maxRecDepth 65536 in
theorem res_eq (m : (ℓ : Loc nD τ sig) → Buf (Elt F) ℓ) (c : Dev nD) :
    res_main_v99 m c = Cert.Spec.result (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v99 Cert.Spec.result Cert.Spec.sim Cert.Spec.agg Cert.Spec.lin0 Cert.Spec.lin1 Cert.Spec.norm Cert.Spec.dinv Cert.Spec.deg Cert.Spec.wrapIx Cert.Spec.srcL Cert.Spec.dstL
  rfl

end Cert.ReferenceIdeal.RefValue

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Val.Final0.lean ====
/-
  Region 0's output array after the region, over the extended reals: entry (r, j) is Σ_k x(r, k) · W1(k, j), the host's dot_general of the two input arrays. Each of the four grid points writes back the product of row block t of x with W1; the four row blocks tile the output.
-/
import proofs.«170229_j50938312130791_1_alg».proof.Proof.KI.Reg0
import proofs.«170229_j50938312130791_1_alg».proof.Proof.Val.Spec
import proofs.«170229_j50938312130791_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-- The body's product at an entry: the two operands' narrowing is the identity over the extended reals, and the
    product into a zero accumulator at (p, q) is Σ_k x0(p, k) · x1(k, q). -/
theorem pay0_at (x0 : Vec Ideal S2048x128 .f32) (x1 : Vec Ideal S128x64 .f32) (p : Fin 2048) (q : Fin 64) :
    k0_pay1 x0 x1 (ix2 p q) = ∑ k : Fin 128, x0 (ix2 p k) * x1 (ix2 k q) := by
  unfold k0_pay1
  exact Cert.LibMatmulAt.matmul_zero_at (M := 2048) (K := 128) (N := 64) dot_S2048x128_S128x64_S2048x64_1_0_0_1_n_n rfl rfl rfl rfl rfl rfl none _ _ p q

/-- The host's product at an entry, Σ_k x(r, k) · w(k, q): the host's dot_general and the product into a zero
    accumulator are one sum over the contraction's index set, and the latter is re-indexed by the contracted axis's
    coordinate. -/
theorem lin0_at (x : (⟨Cert.ReferenceIdeal.S8192x128, .f32⟩ : BufTy).Contents (Elt Ideal)) (w : (⟨Cert.ReferenceIdeal.S128x64, .f32⟩ : BufTy).Contents (Elt Ideal))
    (r : Fin 8192) (q : Fin 64) :
    Cert.Spec.lin0 (F := Ideal) x w (ix2 r q) = ∑ k : Fin 128, x (ix2 r k) * w (ix2 k q) := by
  have h1 := Cert.LibMatmulAt.matmul_zero_at (M := 8192) (K := 128) (N := 64) (φ₁ := .f32) (φ₂ := .f32) Cert.ReferenceIdeal.dot_S8192x128_S128x64_S8192x64_1_0_0_1_n_n
    rfl rfl rfl rfl rfl rfl none x w r q
  rw [Ideal.matmul_constant_zero_apply] at h1
  exact (Ideal.dotGeneral_apply Cert.ReferenceIdeal.dot_S8192x128_S128x64_S8192x64_1_0_0_1_n_n none .single (φ₁ := .f32) (φ₂ := .f32) x w (ix2 r q)).trans h1

theorem zero_pair0 : (![0, 0] : Fin 2 → Nat) = fun _ => 0 := funext fun a => by fin_cases a <;> rfl

/-- The printed index maps, decided over the grid: the row block of x and of the output move with the point, W1 stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point's product against the whole product: when the left block is rows 2048 n … 2048 n + 2047 of x and the
    right block is w, entry j of the block's product is entry (2048 n + j 0, j 1) of x · w. -/
theorem block0_at (x : S8192x128.Idx → EReal) (w : S128x64.Idx → EReal) (x0 : Vec Ideal S2048x128 .f32) (x1 : Vec Ideal S128x64 .f32)
    (n : ℕ) (j : S2048x64.Idx) (i : S8192x64.Idx)
    (hx0 : ∀ (p : Fin 2048) (k : Fin 128) (r : Fin 8192), r.val = 2048 * n + p.val → x0 (ix2 p k) = x (ix2 r k))
    (hx1 : ∀ (k : Fin 128) (q : Fin 64), x1 (ix2 k q) = w (ix2 k q))
    (hi0 : (i 0).val = 2048 * n + (j 0).val) (hi1 : (i 1).val = (j 1).val) :
    k0_pay1 x0 x1 j = Cert.Spec.lin0 (F := Ideal) x w i := by
  obtain ⟨p, q, rfl⟩ : ∃ p q, j = ix2 p q := ⟨j 0, j 1, eq_ix2 j⟩
  obtain ⟨r, q', rfl⟩ : ∃ r q', i = ix2 r q' := ⟨i 0, i 1, eq_ix2 i⟩
  obtain rfl : q' = q := Fin.ext hi1
  rw [pay0_at, lin0_at]
  exact Finset.sum_congr rfl fun k _ => by rw [hx0 p k r hi0, hx1 k q']

section
variable (V : (c : Dev nD) → (b : Ref sig .tc) → Buf (Elt Ideal) ((c : Thread nD τ).loc b))

/-- The row block of x at point t is rows 2048 t … 2048 t + 2047 of x. -/
theorem iblk0_0_at (c : Dev nD) (t : Fin cfg0.N) (p : Fin 2048) (k : Fin 128) (r : Fin 8192) (hr : r.val = 2048 * t.val + p.val) :
    (iblk0 V c 0 t : Vec Ideal S2048x128 .f32) (ix2 p k) = (V c main_arg0 : S8192x128.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * p.val = r.val; omega
  | ⟨1, _⟩ => show win0_0.index t (1 : Fin 2) * 128 + 1 * k.val = k.val; omega

/-- W1's block at any point is W1. -/
theorem iblk0_1_at (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- What point t writes back is block t of x · W1. -/
theorem flushed0_eq (c : Dev nD) (t : Fin cfg0.N) :
    (dat0 (F := Ideal) V c).flushed 2 t = ((cfg0.win 2).blk t).view.read (Elt Ideal) (Cert.Spec.lin0 (F := Ideal) (V c main_arg0) (V c main_arg2)) := by
  show (cfg0.win 2).cut (grid0.coords t) ((dat0 V c).after 2 t) = _
  rw [after0_2]
  unfold out0_2
  rw [View.canon_unit_zero zero_pair0]
  simp only [View.ld_unit_zero (S := S2048x128) zero_pair0, View.ld_unit_zero (S := S128x64) zero_pair0]
  obtain ⟨-, -, -, -, e0, e1⟩ := idx_facts0 t
  funext j
  show k0_pay1 (iblk0 V c 0 t) (iblk0 V c 1 t) j = Cert.Spec.lin0 (F := Ideal) (V c main_arg0) (V c main_arg2) (((cfg0.win 2).blk t).view.emb j)
  refine block0_at _ _ _ _ t.val j _ (iblk0_0_at V c t) (iblk0_1_at V c t) ?_ ?_
  · show win0_2.index t (0 : Fin 2) * 2048 + 1 * (j 0).val = 2048 * t.val + (j 0).val; omega
  · show win0_2.index t (1 : Fin 2) * 64 + 1 * (j 1).val = (j 1).val; omega

end

/-- An index of the output is in point t's block iff each coordinate is in the block's range on its axis. -/
theorem mem_blk0 (t : Fin cfg0.N) (i : S8192x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v30).slice (win0_2.rect t)).set ↔ _
  rw [View.set_slice_whole, Rect.mem_set_unit]
  exact Iff.rfl

/-- Every entry of the output is in the block of the point its row falls in: row r is written by point r / 2048. -/
theorem cover0 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 4 := N_0
  let t : Fin cfg0.N := ⟨(i 0).val / 2048, by rw [hN]; omega⟩
  obtain ⟨-, -, -, -, e0, e1⟩ := idx_facts0 t
  have ht : t.val = (i 0).val / 2048 := rfl
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

theorem final0 (V : (c : Dev nD) → (b : Ref sig .tc) → Buf (Elt Ideal) ((c : Thread nD τ).loc b)) (c : Dev nD) :
    (dat0 (F := Ideal) V c).arrAt 2 cfg0.N = Cert.Spec.lin0 (F := Ideal) (V c main_arg0) (V c main_arg2) :=
  (dat0 (F := Ideal) V c).arrAt_eq_of_cover 2 (Cert.Spec.lin0 (F := Ideal) (V c main_arg0) (V c main_arg2)) (fun t _ => flushed0_eq V c t) cover0

end Cert.KernelIdeal.Fr

end
-- ==== Proof.Val.Final1.lean ====
/-
  Region 1's output array after the region, over the extended reals: entry (r, j) is Σ_k h(r, k) · W2(k, j), the host's dot_general of the two input arrays.
-/
import proofs.«170229_j50938312130791_1_alg».proof.Proof.KI.Reg1
import proofs.«170229_j50938312130791_1_alg».proof.Proof.Val.Spec
import proofs.«170229_j50938312130791_1_alg».proof.Proof.LibMatmulAt
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-- The body's product at an entry: the two operands' narrowing is the identity over the extended reals, and the
    product into a zero accumulator at (p, q) is Σ_k x0(p, k) · x1(k, q). -/
theorem pay1_at (x0 : Vec Ideal S2048x64 .f32) (x1 : Vec Ideal S64x64 .f32) (p : Fin 2048) (q : Fin 64) :
    k1_pay1 x0 x1 (ix2 p q) = ∑ k : Fin 64, x0 (ix2 p k) * x1 (ix2 k q) := by
  unfold k1_pay1
  rw [shapeCast_self]
  exact Cert.LibMatmulAt.matmul_zero_at (M := 2048) (K := 64) (N := 64) dot_S2048x64_S64x64_S2048x64_1_0_0_1_n_n rfl rfl rfl rfl rfl rfl none _ _ p q

/-- The host's product at an entry, Σ_k x(r, k) · w(k, q): the host's dot_general and the product into a zero
    accumulator are one sum over the contraction's index set, and the latter is re-indexed by the contracted axis's
    coordinate. -/
theorem lin1_at (x : (⟨Cert.ReferenceIdeal.S8192x64, .f32⟩ : BufTy).Contents (Elt Ideal)) (w : (⟨Cert.ReferenceIdeal.S64x64, .f32⟩ : BufTy).Contents (Elt Ideal))
    (r : Fin 8192) (q : Fin 64) :
    Cert.Spec.lin1 (F := Ideal) x w (ix2 r q) = ∑ k : Fin 64, x (ix2 r k) * w (ix2 k q) := by
  have h1 := Cert.LibMatmulAt.matmul_zero_at (M := 8192) (K := 64) (N := 64) (φ₁ := .f32) (φ₂ := .f32) Cert.ReferenceIdeal.dot_S8192x64_S64x64_S8192x64_1_0_0_1_n_n
    rfl rfl rfl rfl rfl rfl none x w r q
  rw [Ideal.matmul_constant_zero_apply] at h1
  exact (Ideal.dotGeneral_apply Cert.ReferenceIdeal.dot_S8192x64_S64x64_S8192x64_1_0_0_1_n_n none .single (φ₁ := .f32) (φ₂ := .f32) x w (ix2 r q)).trans h1

theorem zero_pair1 : (![0, 0] : Fin 2 → Nat) = fun _ => 0 := funext fun a => by fin_cases a <;> rfl

/-- The printed index maps, decided over the grid: the row block of h and of the output move with the point, W2 stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One point's product against the whole product: when the left block is rows 2048 n … 2048 n + 2047 of x and the
    right block is w, entry j of the block's product is entry (2048 n + j 0, j 1) of x · w. -/
theorem block1_at (x : S8192x64.Idx → EReal) (w : S64x64.Idx → EReal) (x0 : Vec Ideal S2048x64 .f32) (x1 : Vec Ideal S64x64 .f32)
    (n : ℕ) (j : S2048x64.Idx) (i : S8192x64.Idx)
    (hx0 : ∀ (p : Fin 2048) (k : Fin 64) (r : Fin 8192), r.val = 2048 * n + p.val → x0 (ix2 p k) = x (ix2 r k))
    (hx1 : ∀ (k : Fin 64) (q : Fin 64), x1 (ix2 k q) = w (ix2 k q))
    (hi0 : (i 0).val = 2048 * n + (j 0).val) (hi1 : (i 1).val = (j 1).val) :
    k1_pay1 x0 x1 j = Cert.Spec.lin1 (F := Ideal) x w i := by
  obtain ⟨p, q, rfl⟩ : ∃ p q, j = ix2 p q := ⟨j 0, j 1, eq_ix2 j⟩
  obtain ⟨r, q', rfl⟩ : ∃ r q', i = ix2 r q' := ⟨i 0, i 1, eq_ix2 i⟩
  obtain rfl : q' = q := Fin.ext hi1
  rw [pay1_at, lin1_at]
  exact Finset.sum_congr rfl fun k _ => by rw [hx0 p k r hi0, hx1 k q']

section
variable (V : (c : Dev nD) → (b : Ref sig .tc) → Buf (Elt Ideal) ((c : Thread nD τ).loc b))

/-- The row block of h at point t is rows 2048 t … 2048 t + 2047 of h. -/
theorem iblk1_0_at (c : Dev nD) (t : Fin cfg1.N) (p : Fin 2048) (k : Fin 64) (r : Fin 8192) (hr : r.val = 2048 * t.val + p.val) :
    (iblk1 V c 0 t : Vec Ideal S2048x64 .f32) (ix2 p k) = (V c main_v47 : S8192x64.Idx → EReal) (ix2 r k) := by
  obtain ⟨e0, e1, -⟩ := idx_facts1 t
  unfold iblk1
  rw [View.read_apply]
  show V c main_v47 _ = V c main_v47 _
  congr 1
  funext a
  apply Fin.ext
  match a with
  | ⟨0, _⟩ => show win1_0.index t (0 : Fin 2) * 2048 + 1 * p.val = r.val; omega
  | ⟨1, _⟩ => show win1_0.index t (1 : Fin 2) * 64 + 1 * k.val = k.val; omega

/-- W2's block at any point is W2. -/
theorem iblk1_1_at (c : Dev nD) (t : Fin cfg1.N) (k : Fin 64) (q : Fin 64) :
    (iblk1 V c 1 t : Vec Ideal S64x64 .f32) (ix2 k q) = (V c main_arg4 : S64x64.Idx → EReal) (ix2 k q) := by
  obtain ⟨-, -, e0, e1, -⟩ := idx_facts1 t
  unfold iblk1
  rw [View.read_apply]
  show V c main_arg4 _ = V c main_arg4 _
  congr 1
  funext a
  apply Fin.ext
  match a with
  | ⟨0, _⟩ => show win1_1.index t (0 : Fin 2) * 64 + 1 * k.val = k.val; omega
  | ⟨1, _⟩ => show win1_1.index t (1 : Fin 2) * 64 + 1 * q.val = q.val; omega

/-- What point t writes back is block t of h · W2. -/
theorem flushed1_eq (c : Dev nD) (t : Fin cfg1.N) :
    (dat1 (F := Ideal) V c).flushed 2 t = ((cfg1.win 2).blk t).view.read (Elt Ideal) (Cert.Spec.lin1 (F := Ideal) (V c main_v47) (V c main_arg4)) := by
  show (cfg1.win 2).cut (grid1.coords t) ((dat1 V c).after 2 t) = _
  rw [after1_2]
  unfold out1_2
  rw [View.canon_unit_zero zero_pair1]
  simp only [View.ld_unit_zero (S := S2048x64) zero_pair1, View.ld_unit_zero (S := S64x64) zero_pair1]
  obtain ⟨-, -, -, -, e0, e1⟩ := idx_facts1 t
  funext j
  show k1_pay1 (iblk1 V c 0 t) (iblk1 V c 1 t) j = Cert.Spec.lin1 (F := Ideal) (V c main_v47) (V c main_arg4) (((cfg1.win 2).blk t).view.emb j)
  refine block1_at _ _ _ _ t.val j _ (iblk1_0_at V c t) (iblk1_1_at V c t) ?_ ?_
  · show win1_2.index t (0 : Fin 2) * 2048 + 1 * (j 0).val = 2048 * t.val + (j 0).val; omega
  · show win1_2.index t (1 : Fin 2) * 64 + 1 * (j 1).val = (j 1).val; omega

end

/-- An index of the output is in point t's block iff each coordinate is in the block's range on its axis. -/
theorem mem_blk1 (t : Fin cfg1.N) (i : S8192x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v48).slice (win1_2.rect t)).set ↔ _
  rw [View.set_slice_whole, Rect.mem_set_unit]
  exact Iff.rfl

/-- Every entry of the output is in the block of the point its row falls in: row r is written by point r / 2048. -/
theorem cover1 (i : S8192x64.Idx) : ∃ t : Fin cfg1.N, (cfg1.win 2).flush t = true ∧ i ∈ ((cfg1.win 2).blk t).view.set := by
  have hi0 : (i 0).val < 8192 := (i 0).isLt
  have hi1 : (i 1).val < 64 := (i 1).isLt
  have hN : cfg1.N = 4 := N_1
  let t : Fin cfg1.N := ⟨(i 0).val / 2048, by rw [hN]; omega⟩
  obtain ⟨-, -, -, -, e0, e1⟩ := idx_facts1 t
  have ht : t.val = (i 0).val / 2048 := rfl
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 64 ≤ (i 1).val ∧ (i 1).val < win1_2.index t (1 : Fin 2) * 64 + 64; omega

theorem final1 (V : (c : Dev nD) → (b : Ref sig .tc) → Buf (Elt Ideal) ((c : Thread nD τ).loc b)) (c : Dev nD) :
    (dat1 (F := Ideal) V c).arrAt 2 cfg1.N = Cert.Spec.lin1 (F := Ideal) (V c main_v47) (V c main_arg4) :=
  (dat1 (F := Ideal) V c).arrAt_eq_of_cover 2 (Cert.Spec.lin1 (F := Ideal) (V c main_v47) (V c main_arg4)) (fun t _ => flushed1_eq V c t) cover1

end Cert.KernelIdeal.Fr

end
-- ==== Proof.Val.Final2.lean ====
/-
  Region 2's output array after the region, over the extended reals: entry (r, s) is the logistic function of Σ_k h(r, k) · h(s, k), which is the host's 1 / (1 + exp(−(h · hᵀ)(r, s))). Grid point (i, j) writes back tile (i, j): the logistic function of the contraction of row blocks i and j of h; the 64 tiles tile the output.
-/
import proofs.«170229_j50938312130791_1_alg».proof.Proof.KI.Reg2
import proofs.«170229_j50938312130791_1_alg».proof.Proof.Val.Spec
import proofs.«170229_j50938312130791_1_alg».proof.Proof.LibMatmulAt
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

/-! ## A matrix product against the transpose of its right operand, read at an entry

For dimension numbers that contract the columns of the left operand against the columns of the right operand, with no
batch axis — `[M, K] · [N, K]ᵀ → [M, N]` — the product into a zero accumulator has, at row `o` and column `t`, the
entry `∑ c, A[o, c] · B[t, c]`. The contraction's index set has one axis; the sum over it is re-indexed by that
axis's coordinate. -/

namespace Cert.LibMatmulTAt

open scoped BigOperators
open Idealize.ShloMosaic Idealize.ShloMosaic.ValueIdx

variable {M K N : ℕ} (D : DotDims ⟨2, ![M, K]⟩ ⟨2, ![N, K]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's row is the result's column. -/
theorem rhs_row (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmulT_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_row D hrb hlb hln hrn _ _
      | ⟨1, _⟩ => exact (D.rhsIdx_val_of_single hrc _ _).trans hk)
  rw [el, er]

end Cert.LibMatmulTAt

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-- The zero offsets of a whole-block rectangle, spelt as the constant function. -/
theorem zero_off2 : (![0, 0] : Fin 2 → Nat) = fun _ => 0 :=
  funext fun a => by match a with | ⟨0, _⟩ => rfl | ⟨1, _⟩ => rfl

/-- The body's tile at an entry: the logistic function of the contraction of row p of the first block with row q of the second. -/
theorem tile_at (a b : FVec Ideal S1024x64 .f32) (p q : Fin 1024) :
    k2_pay1 (F := Ideal) a b (ix2 p q) = Ideal.logistic (∑ k : Fin 64, a (ix2 p k) * b (ix2 q k)) := by
  unfold k2_pay1
  show Ideal.logistic (FloatOps.matmul (F := Ideal) dot_S1024x64_S1024x64_S1024x1024_1_1_0_0_n_n none
      (truncf (F := Ideal) .bf16 (shapeCast S1024x64 a shapeCasts_S1024x64_S1024x64) bitsLt_bf16_f32)
      (truncf (F := Ideal) .bf16 (shapeCast S1024x64 b shapeCasts_S1024x64_S1024x64) bitsLt_bf16_f32)
      (constant (F := Ideal) S1024x1024 .f32 0x00000000#32) (ix2 p q)) = _
  refine congrArg Ideal.logistic ?_
  refine (Cert.LibMatmulTAt.matmulT_zero_at dot_S1024x64_S1024x64_S1024x1024_1_1_0_0_n_n rfl rfl rfl rfl rfl rfl none _ _ p q).trans ?_
  refine Finset.sum_congr rfl fun k _ => ?_
  show shapeCast S1024x64 a shapeCasts_S1024x64_S1024x64 (ix2 p k) * shapeCast S1024x64 b shapeCasts_S1024x64_S1024x64 (ix2 q k) = _
  rw [shapeCast_self, shapeCast_self]

/-- The host's similarity matrix at an entry: the logistic function of the contraction of rows r and s of h. -/
theorem sim_at (h : FVec Ideal S8192x64 .f32) (r s : Fin 8192) :
    Cert.Spec.sim (F := Ideal) h (ix2 r s) = Ideal.logistic (∑ k : Fin 64, h (ix2 r k) * h (ix2 s k)) := by
  have e : FloatOps.dotGeneral (F := Ideal) (φ₁ := .f32) (φ₂ := .f32) Cert.ReferenceIdeal.dot_S8192x64_S64x8192_S8192x8192_1_0_0_1_n_n none .single h
      (transpose Cert.ReferenceIdeal.S64x8192 [1, 0] h Cert.ReferenceIdeal.Facts₀.transposes_S8192x64_S64x8192_1_0) (ix2 r s)
      = ∑ k : Fin 64, h (ix2 r k) * h (ix2 s k) := by
    rw [Ideal.dotGeneral_apply]
    refine ((Ideal.matmul_constant_zero_apply _ none h _ (ix2 r s)).symm.trans
      (Cert.LibMatmulAt.matmul_zero_at _ rfl rfl rfl rfl rfl rfl none h _ r s)).trans ?_
    refine Finset.sum_congr rfl fun k _ => ?_
    refine congrArg (h (ix2 r k) * ·) ?_
    exact transpose_apply [1, 0] h _ (ix2 k s) (ix2 s k) (fun b => by match b with | ⟨0, _⟩ => rfl | ⟨1, _⟩ => rfl)
  unfold Cert.Spec.sim
  show Ideal.div (Ideal.ofBits .f32 0x3F800000#32) (Ideal.ofBits .f32 0x3F800000#32 + Ideal.exp (-(FloatOps.dotGeneral (F := Ideal) (φ₁ := .f32) (φ₂ := .f32) Cert.ReferenceIdeal.dot_S8192x64_S64x8192_S8192x8192_1_0_0_1_n_n none .single h
      (transpose Cert.ReferenceIdeal.S64x8192 [1, 0] h Cert.ReferenceIdeal.Facts₀.transposes_S8192x64_S64x8192_1_0) (ix2 r s)))) = _
  rw [e, Ideal.ofBits_one_f32]
  rfl

/-- The printed index maps over the grid: at point t the first input's row block is t / 8, the second's t % 8, and the output's tile is (t / 8, t % 8). -/
theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- WHAT POINT t WRITES BACK is tile (t / 8, t % 8) of the host's similarity matrix of the array both input windows read. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.sim (F := Ideal) (V c main_v65)) := by
  show (cfg2.win 2).cut (grid2.coords t) ((dat2 (F := Ideal) V c).after 2 t) = _
  rw [after2_2]
  unfold out2_2
  rw [View.canon_unit_zero zero_off2]
  simp only [View.ld_unit_zero (S := S1024x64) zero_off2]
  obtain ⟨e0, e1, e2, e3, e4, e5⟩ := idx_facts2 t
  have ht : t.val < 64 := t.isLt
  funext y
  obtain ⟨p, q, rfl⟩ : ∃ (p q : Fin 1024), y = ix2 p q := ⟨y 0, y 1, eq_ix2 y⟩
  have hp : p.val < 1024 := p.isLt
  have hq : q.val < 1024 := q.isLt
  have hi : 1024 * (t.val / 8) + p.val < 8192 := by omega
  have hj : 1024 * (t.val % 8) + q.val < 8192 := by omega
  have hemb : ((cfg2.win 2).blk t).view.emb (ix2 p q)
      = ix2 (⟨1024 * (t.val / 8) + p.val, hi⟩ : Fin 8192) (⟨1024 * (t.val % 8) + q.val, hj⟩ : Fin 8192) := by
    funext a; apply Fin.ext
    match a with
    | ⟨0, _⟩ => show win2_2.index t (0 : Fin 2) * 1024 + 1 * p.val = 1024 * (t.val / 8) + p.val; omega
    | ⟨1, _⟩ => show win2_2.index t (1 : Fin 2) * 1024 + 1 * q.val = 1024 * (t.val % 8) + q.val; omega
  show k2_pay1 (F := Ideal) (iblk2 V c 0 t) (iblk2 V c 1 t) (ix2 p q)
    = Cert.Spec.sim (F := Ideal) (V c main_v65) (((cfg2.win 2).blk t).view.emb (ix2 p q))
  refine (tile_at (iblk2 V c 0 t) (iblk2 V c 1 t) p q).trans ?_
  refine Eq.trans ?_ ((sim_at (V c main_v65) ⟨1024 * (t.val / 8) + p.val, hi⟩ ⟨1024 * (t.val % 8) + q.val, hj⟩).symm.trans
    (congrArg (Cert.Spec.sim (F := Ideal) (V c main_v65)) hemb.symm))
  refine congrArg Ideal.logistic (Finset.sum_congr rfl fun k _ => ?_)
  have hk : k.val < 64 := k.isLt
  have h0 : ((cfg2.win 0).blk t).view.emb (ix2 p k) = ix2 (⟨1024 * (t.val / 8) + p.val, hi⟩ : Fin 8192) k := by
    funext a; apply Fin.ext
    match a with
    | ⟨0, _⟩ => show win2_0.index t (0 : Fin 2) * 1024 + 1 * p.val = 1024 * (t.val / 8) + p.val; omega
    | ⟨1, _⟩ => show win2_0.index t (1 : Fin 2) * 64 + 1 * k.val = k.val; omega
  have h1 : ((cfg2.win 1).blk t).view.emb (ix2 q k) = ix2 (⟨1024 * (t.val % 8) + q.val, hj⟩ : Fin 8192) k := by
    funext a; apply Fin.ext
    match a with
    | ⟨0, _⟩ => show win2_1.index t (0 : Fin 2) * 1024 + 1 * q.val = 1024 * (t.val % 8) + q.val; omega
    | ⟨1, _⟩ => show win2_1.index t (1 : Fin 2) * 64 + 1 * k.val = k.val; omega
  exact congrArg₂ (· * ·) (congrArg (V c main_v65) h0) (congrArg (V c main_v65) h1)

/-- An entry of the output is in point t's tile iff each coordinate is in the tile's range on its axis. -/
theorem mem_blk2 (t : Fin cfg2.N) (i : S8192x8192.Idx) :
    i ∈ ((cfg2.win 2).blk t).view.set
      ↔ ∀ a : Fin 2, win2_2.index t a * S1024x1024.size a ≤ (i a).val ∧ (i a).val < win2_2.index t a * S1024x1024.size a + S1024x1024.size a := by
  show i ∈ ((View.whole main_v66).slice (win2_2.rect t)).set ↔ _
  rw [View.set_slice_whole, Rect.mem_set_unit]
  exact Iff.rfl

/-- THE TILES COVER THE OUTPUT: entry (r, s) is in the tile of the point 8 · (r / 1024) + s / 1024. -/
theorem cover2 (i : S8192x8192.Idx) :
    ∃ t : Fin cfg2.N, (cfg2.win 2).flush t = true ∧ i ∈ ((cfg2.win 2).blk t).view.set := by
  have h0 : (i 0).val < 8192 := (i 0).isLt
  have h1 : (i 1).val < 8192 := (i 1).isLt
  obtain ⟨t, ht⟩ : ∃ t : Fin cfg2.N, t.val = 8 * ((i 0).val / 1024) + (i 1).val / 1024 :=
    ⟨⟨8 * ((i 0).val / 1024) + (i 1).val / 1024, by show _ < 64; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

theorem final2 (V : (c : Dev nD) → (b : Ref sig .tc) → Buf (Elt Ideal) ((c : Thread nD τ).loc b)) (c : Dev nD) :
    (dat2 (F := Ideal) V c).arrAt 2 cfg2.N = Cert.Spec.sim (F := Ideal) (V c main_v65) :=
  (dat2 (F := Ideal) V c).arrAt_eq_of_cover 2 (Cert.Spec.sim (F := Ideal) (V c main_v65)) (fun t _ => flushed2_eq V c t) cover2

end Cert.KernelIdeal.Fr

end
-- ==== Proof.Val.KerVal.lean ====
/-
  The kernel's result array at the end of @main, over the extended reals, is the shared computation of the six
  arguments. The host stretches before region 0 build the edge lists with their self loops, the in-degrees, their
  inverse square roots and the per-edge normalisation: operation for operation the named functions of Val/Spec, read
  off the fold one stretch at a time. No region and no later stretch writes them, nor the biases, so each layer's
  aggregation (gather at the sources, scale, scatter-add at the destinations, bias, relu) reads them unchanged and is
  Spec's aggregation of the region's output array before it. The three regions' output arrays are x · W1, h1 · W2 and
  the logistic function of h2 · h2ᵀ of their input arrays; composed, Spec's result.
-/
import proofs.«170229_j50938312130791_1_alg».proof.Proof.KI.Run
import proofs.«170229_j50938312130791_1_alg».proof.Proof.Val.Spec
import proofs.«170229_j50938312130791_1_alg».proof.Proof.Val.Final0
import proofs.«170229_j50938312130791_1_alg».proof.Proof.Val.Final1
import proofs.«170229_j50938312130791_1_alg».proof.Proof.Val.Final2
import Idealize.ShloMosaic.Lib.StableHlo.Run

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The first three stretches: edge lists, inverse square roots of the degrees, normalisation -/

/-- After the first stretch the source list is the edge list's row 0 with the self loops appended. -/
theorem v5_W1 (c : Dev nD) : W1 m c main_v5 = Cert.Spec.srcL (m ((c : Thread nD τ).loc main_arg1)) := by
  show StableHlo.after hostOps0 (W0 m c) (Proc.devRef .tc main_v5) = _
  after_results
  rfl

/-- After the first stretch the destination list is the edge list's row 1 with the self loops appended. -/
theorem v6_W1 (c : Dev nD) : W1 m c main_v6 = Cert.Spec.dstL (m ((c : Thread nD τ).loc main_arg1)) := by
  show StableHlo.after hostOps0 (W0 m c) (Proc.devRef .tc main_v6) = _
  after_results
  rfl

theorem v5_W2 (c : Dev nD) : W2 m c main_v5 = Cert.Spec.srcL (m ((c : Thread nD τ).loc main_arg1)) :=
  (W2_of m c main_v5 (by decide)).trans (v5_W1 m c)
theorem v6_W2 (c : Dev nD) : W2 m c main_v6 = Cert.Spec.dstL (m ((c : Thread nD τ).loc main_arg1)) :=
  (W2_of m c main_v6 (by decide)).trans (v6_W1 m c)
theorem v5_W3 (c : Dev nD) : W3 m c main_v5 = Cert.Spec.srcL (m ((c : Thread nD τ).loc main_arg1)) :=
  (W3_of m c main_v5 (by decide)).trans (v5_W2 m c)
theorem v6_W3 (c : Dev nD) : W3 m c main_v6 = Cert.Spec.dstL (m ((c : Thread nD τ).loc main_arg1)) :=
  (W3_of m c main_v6 (by decide)).trans (v6_W2 m c)

set_option maxHeartbeats 1000000 in
/-- After the second stretch: deg^(-1/2) where the in-degree (a scatter-add of ones at the destinations) is positive,
    0 elsewhere. -/
theorem v14_W2 (c : Dev nD) : W2 m c main_v14 = Cert.Spec.dinv (m ((c : Thread nD τ).loc main_arg1)) := by
  show StableHlo.after hostOps0_1 (StableHlo.after hostOps0 (W0 m c)) (Proc.devRef .tc main_v14) = _
  after_results_simp
  rfl

set_option maxHeartbeats 1000000 in
/-- The third stretch from any contents holding the two lists and the inverse square roots: edge k's weight is
    dinv(src k) · dinv(dst k), a negative index counted from the end. -/
theorem norm_step (V : Valuation τ sig (Elt F)) (e : (⟨Cert.ReferenceIdeal.S2x262144, .i32⟩ : BufTy).Contents (Elt F))
    (h5 : V (Proc.devRef .tc main_v5) = Cert.Spec.srcL e) (h6 : V (Proc.devRef .tc main_v6) = Cert.Spec.dstL e)
    (h14 : V (Proc.devRef .tc main_v14) = Cert.Spec.dinv e) :
    StableHlo.after hostOps0_2 V (Proc.devRef .tc main_v29) = Cert.Spec.norm e := by
  after_results_simp
  rw [h5, h6, h14]
  rfl

theorem v29_W3 (c : Dev nD) : W3 m c main_v29 = Cert.Spec.norm (m ((c : Thread nD τ).loc main_arg1)) :=
  norm_step (W2 m c) _ (v5_W2 m c) (v6_W2 m c) (v14_W2 m c)

/-! ## A layer's aggregation from any contents holding the lists, the normalisation, the linear transform and the bias -/

set_option maxHeartbeats 1000000 in
/-- The first layer: relu(Σ_{k : dst k = v} hlin(src k, ·) · norm k + b). -/
theorem agg_step1 (V : Valuation τ sig (Elt F)) (e : (⟨Cert.ReferenceIdeal.S2x262144, .i32⟩ : BufTy).Contents (Elt F))
    (hlin : (⟨Cert.ReferenceIdeal.S8192x64, .f32⟩ : BufTy).Contents (Elt F)) (b : (⟨Cert.ReferenceIdeal.S64, .f32⟩ : BufTy).Contents (Elt F))
    (h5 : V (Proc.devRef .tc main_v5) = Cert.Spec.srcL e) (h6 : V (Proc.devRef .tc main_v6) = Cert.Spec.dstL e)
    (h29 : V (Proc.devRef .tc main_v29) = Cert.Spec.norm e) (hh : V (Proc.devRef .tc main_v30) = hlin)
    (hb : V (Proc.devRef .tc main_arg3) = b) :
    StableHlo.after hostOps1_1 (StableHlo.after hostOps1 V) (Proc.devRef .tc main_v47) = Cert.Spec.agg e hlin b := by
  after_results_simp
  rw [h5, h6, h29, hh, hb]
  rfl

set_option maxHeartbeats 1000000 in
/-- The second layer, the same operations over its own buffers. -/
theorem agg_step2 (V : Valuation τ sig (Elt F)) (e : (⟨Cert.ReferenceIdeal.S2x262144, .i32⟩ : BufTy).Contents (Elt F))
    (hlin : (⟨Cert.ReferenceIdeal.S8192x64, .f32⟩ : BufTy).Contents (Elt F)) (b : (⟨Cert.ReferenceIdeal.S64, .f32⟩ : BufTy).Contents (Elt F))
    (h5 : V (Proc.devRef .tc main_v5) = Cert.Spec.srcL e) (h6 : V (Proc.devRef .tc main_v6) = Cert.Spec.dstL e)
    (h29 : V (Proc.devRef .tc main_v29) = Cert.Spec.norm e) (hh : V (Proc.devRef .tc main_v48) = hlin)
    (hb : V (Proc.devRef .tc main_arg5) = b) :
    StableHlo.after hostOps2_1 (StableHlo.after hostOps2 V) (Proc.devRef .tc main_v65) = Cert.Spec.agg e hlin b := by
  after_results_simp
  rw [h5, h6, h29, hh, hb]
  rfl

/-! ## The edge lists, the normalisation and the biases carried to where each layer's aggregation reads them -/

theorem v5_W4 (c : Dev nD) : W4 m c main_v5 = Cert.Spec.srcL (m ((c : Thread nD τ).loc main_arg1)) :=
  (W4_of_ne m c main_v5 (by decide)).trans (v5_W3 m c)
theorem v6_W4 (c : Dev nD) : W4 m c main_v6 = Cert.Spec.dstL (m ((c : Thread nD τ).loc main_arg1)) :=
  (W4_of_ne m c main_v6 (by decide)).trans (v6_W3 m c)
theorem v29_W4 (c : Dev nD) : W4 m c main_v29 = Cert.Spec.norm (m ((c : Thread nD τ).loc main_arg1)) :=
  (W4_of_ne m c main_v29 (by decide)).trans (v29_W3 m c)
theorem arg3_W4 (c : Dev nD) : W4 m c main_arg3 = m ((c : Thread nD τ).loc main_arg3) :=
  (W4_of_ne m c main_arg3 (by decide)).trans (W3_to_W0 m c main_arg3 (by decide) (by decide) (by decide))

theorem v5_W7 (c : Dev nD) : W7 m c main_v5 = Cert.Spec.srcL (m ((c : Thread nD τ).loc main_arg1)) :=
  (W7_of_ne m c main_v5 (by decide)).trans ((W6_to_W4 m c main_v5 (by decide) (by decide)).trans (v5_W4 m c))
theorem v6_W7 (c : Dev nD) : W7 m c main_v6 = Cert.Spec.dstL (m ((c : Thread nD τ).loc main_arg1)) :=
  (W7_of_ne m c main_v6 (by decide)).trans ((W6_to_W4 m c main_v6 (by decide) (by decide)).trans (v6_W4 m c))
theorem v29_W7 (c : Dev nD) : W7 m c main_v29 = Cert.Spec.norm (m ((c : Thread nD τ).loc main_arg1)) :=
  (W7_of_ne m c main_v29 (by decide)).trans ((W6_to_W4 m c main_v29 (by decide) (by decide)).trans (v29_W4 m c))
theorem arg5_W7 (c : Dev nD) : W7 m c main_arg5 = m ((c : Thread nD τ).loc main_arg5) :=
  (W7_of_ne m c main_arg5 (by decide)).trans ((W6_to_W4 m c main_arg5 (by decide) (by decide)).trans
    ((W4_of_ne m c main_arg5 (by decide)).trans (W3_to_W0 m c main_arg5 (by decide) (by decide) (by decide))))

/-- The first layer's activations: the aggregation of region 0's output array with the first bias. -/
theorem v47_W6 (c : Dev nD) :
    W6 m c main_v47 = Cert.Spec.agg (m ((c : Thread nD τ).loc main_arg1)) (W4 m c main_v30) (m ((c : Thread nD τ).loc main_arg3)) :=
  agg_step1 (W4 m c) _ _ _ (v5_W4 m c) (v6_W4 m c) (v29_W4 m c) rfl (arg3_W4 m c)

/-- The second layer's activations: the aggregation of region 1's output array with the second bias. -/
theorem v65_W9 (c : Dev nD) :
    W9 m c main_v65 = Cert.Spec.agg (m ((c : Thread nD τ).loc main_arg1)) (W7 m c main_v48) (m ((c : Thread nD τ).loc main_arg5)) :=
  agg_step2 (W7 m c) _ _ _ (v5_W7 m c) (v6_W7 m c) (v29_W7 m c) rfl (arg5_W7 m c)

/-! ## The three regions' output arrays, over the extended reals -/

theorem arg0_W3 (c : Dev nD) : W3 m c main_arg0 = m ((c : Thread nD τ).loc main_arg0) :=
  W3_to_W0 m c main_arg0 (by decide) (by decide) (by decide)
theorem arg2_W3 (c : Dev nD) : W3 m c main_arg2 = m ((c : Thread nD τ).loc main_arg2) :=
  W3_to_W0 m c main_arg2 (by decide) (by decide) (by decide)
theorem arg4_W6 (c : Dev nD) : W6 m c main_arg4 = m ((c : Thread nD τ).loc main_arg4) :=
  (W6_to_W4 m c main_arg4 (by decide) (by decide)).trans
    ((W4_of_ne m c main_arg4 (by decide)).trans (W3_to_W0 m c main_arg4 (by decide) (by decide) (by decide)))

theorem v30_W4 (m : (ℓ : Loc nD τ sig) → Buf (Elt Ideal) ℓ) (c : Dev nD) :
    W4 (F := Ideal) m c main_v30
      = Cert.Spec.lin0 (F := Ideal) (m ((c : Thread nD τ).loc main_arg0)) (m ((c : Thread nD τ).loc main_arg2)) :=
  (W4_arr m c 2).trans ((final0 (E3 m) c).trans (by
    show Cert.Spec.lin0 (F := Ideal) (W3 m c main_arg0) (W3 m c main_arg2) = _
    rw [arg0_W3, arg2_W3]))

theorem v48_W7 (m : (ℓ : Loc nD τ sig) → Buf (Elt Ideal) ℓ) (c : Dev nD) :
    W7 (F := Ideal) m c main_v48 = Cert.Spec.lin1 (F := Ideal) (W6 m c main_v47) (m ((c : Thread nD τ).loc main_arg4)) :=
  (W7_arr m c 2).trans ((final1 (E6 m) c).trans (by
    show Cert.Spec.lin1 (F := Ideal) (W6 m c main_v47) (W6 m c main_arg4) = _
    rw [arg4_W6]))

/-- The kernel's result array at the end of @main is the shared computation of the six arguments. -/
theorem W10_v66 (m : (ℓ : Loc nD τ sig) → Buf (Elt Ideal) ℓ) (c : Dev nD) :
    W10 (F := Ideal) m c main_v66 = Cert.Spec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_out m c).trans ((final2 (E9 m) c).trans ?_)
  show Cert.Spec.sim (F := Ideal) (W9 m c main_v65) = _
  rw [v65_W9, v48_W7, v47_W6, v30_W4]
  rfl

end Cert.KernelIdeal.Fr

end
-- ==== Proof.lean ====
/-
  The certificate of a two-layer graph convolution followed by the similarity matrix sigmoid(h · hᵀ).
  Both programs compute, from the edge list with self loops appended, the symmetric normalisation
  norm k = deg(src k)^(-1/2) · deg(dst k)^(-1/2) and, per layer, relu(Σ_{k : dst k = v} (h · W)(src k, ·) · norm k + b).
  The kernel runs the two dense products h · W and the final sigmoid(h · hᵀ) on the matrix unit in three tiled
  pallas_calls (operands rounded to bf16 on the way in, which over the extended reals is the identity), the reference
  as host dot_generals and the logistic function spelt 1 / (1 + exp(−s)); everything between is the same host
  operations on both sides.
  Frames: @main of either kernel program is ten items - host stretches and the three regions - run one after the other
  from the launch; each region's body stores one whole block computed from the blocks it loads, nothing is owed to
  anyone, and no item writes an argument. The reference's frame is its run with the result dropped.
  Values over the extended reals: each region's output array is a whole-array function of its input arrays (the tiles
  cover the output), equal to the host's dot_general (a sum over the contracted axis on both sides) or, for the last
  region, to 1 / (1 + exp(−(h · hᵀ))) (the logistic function is that expression, and hᵀ read at (k, s) is h at (s, k));
  the host stretches are then literally the reference's operations. No algebraic law beyond these identities is used,
  and the inputs' finiteness is not needed.
-/
import proofs.«170229_j50938312130791_1_alg».proof.Defs
import proofs.«170229_j50938312130791_1_alg».proof.Proof.Gen.Kernel
import proofs.«170229_j50938312130791_1_alg».proof.Proof.Gen.KernelIdeal
import proofs.«170229_j50938312130791_1_alg».proof.Proof.Gen.ReferenceIdeal
import proofs.«170229_j50938312130791_1_alg».proof.Proof.Gen.Pre_finite_inputs
import proofs.«170229_j50938312130791_1_alg».proof.Proof.K.Run
import proofs.«170229_j50938312130791_1_alg».proof.Proof.KI.Run
import proofs.«170229_j50938312130791_1_alg».proof.Proof.RefRun
import proofs.«170229_j50938312130791_1_alg».proof.Proof.Val.RefVal
import proofs.«170229_j50938312130791_1_alg».proof.Proof.Val.KerVal
import Idealize.ShloMosaic.Adequacy
import Idealize.ShloMosaic.Init

noncomputable section

namespace Cert.Proof

open Idealize.ShloMosaic Idealize.ShloMosaic.TcCoe Idealize.SL.Sem

open Cert.KernelIdeal.Fr (W10_v66)

/-- The word-level kernel program runs to the end and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Over the extended reals both programs end with the shared computation of the six arguments. -/
theorem algebraic : Cert.algebraic_KernelIdeal_ReferenceIdeal := by
  intro m ρ m' ρ' _ hagree
  refine ⟨fun c => Cert.Spec.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_all (F := Ideal) m ρ)
    exact ⟨(h c _ (Cert.KernelIdeal.Fr.mem_uc Cert.KernelIdeal.main_v66 (by decide))).trans (W10_v66 m c),
      (h c _ (Cert.KernelIdeal.Fr.mem_uc Cert.KernelIdeal.main_arg0 (by decide))).trans (Cert.KernelIdeal.Fr.W10_main_arg0 m c),
      (h c _ (Cert.KernelIdeal.Fr.mem_uc Cert.KernelIdeal.main_arg1 (by decide))).trans (Cert.KernelIdeal.Fr.W10_main_arg1 m c),
      (h c _ (Cert.KernelIdeal.Fr.mem_uc Cert.KernelIdeal.main_arg2 (by decide))).trans (Cert.KernelIdeal.Fr.W10_main_arg2 m c),
      (h c _ (Cert.KernelIdeal.Fr.mem_uc Cert.KernelIdeal.main_arg3 (by decide))).trans (Cert.KernelIdeal.Fr.W10_main_arg3 m c),
      (h c _ (Cert.KernelIdeal.Fr.mem_uc Cert.KernelIdeal.main_arg4 (by decide))).trans (Cert.KernelIdeal.Fr.W10_main_arg4 m c),
      (h c _ (Cert.KernelIdeal.Fr.mem_uc Cert.KernelIdeal.main_arg5 (by decide))).trans (Cert.KernelIdeal.Fr.W10_main_arg5 m c)⟩
  · refine (θ_run Cert.ReferenceIdeal.defs _ _).mono (fun _ h c => ⟨(h c).1.trans ?_, (h c).2⟩)
      (Cert.ReferenceIdeal.ValueP.run (F := Ideal) m' ρ')
    have e := Cert.ReferenceIdeal.RefValue.res_eq (F := Ideal) m' c
    rw [(hagree c).1, (hagree c).2.1, (hagree c).2.2.1, (hagree c).2.2.2.1, (hagree c).2.2.2.2.1, (hagree c).2.2.2.2.2] at e
    exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
